-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16384 : Shape := ⟨2, ![64, 16384]⟩
abbrev S2097152 : Shape := ⟨1, ![2097152]⟩
abbrev S_ : Shape := ⟨0, ![]⟩

class Facts : Prop where
  bcast_S_S64x16384 : S_.BroadcastsInDim S64x16384 (![] : Fin 0 → Fin S64x16384.rank)
  reducesTo_S64x16384_S_d0_1 : S64x16384.ReducesTo [0, 1] S_
  h_S_ : 0 < S_.numel
  bcast_S_S2097152 : S_.BroadcastsInDim S2097152 (![] : Fin 0 → Fin S2097152.rank)
  reducesTo_S2097152_S_d0 : S2097152.ReducesTo [0] S_

variable [Facts]

def fn_part1 {F : FTy → Type} [FloatOps F] (main_arg2 : IVec S2097152 32) (main_v15 : IVec S_ 1) (main_c_5 : IVec S_ 32) : IVec S_ 1 :=
  let main_v16 : IVec S2097152 32 := broadcastInDim S2097152 ![] bcast_S_S2097152 main_c_5
  let main_v17 : IVec S2097152 1 := cmpi .sge main_arg2 main_v16
  let main_c_6 : IVec S_ 32 := constantI S_ 32 16384#32
  let main_v18 : IVec S2097152 32 := broadcastInDim S2097152 ![] bcast_S_S2097152 main_c_6
  let main_v19 : IVec S2097152 1 := cmpi .slt main_arg2 main_v18
  let main_v20 : IVec S2097152 1 := andi main_v17 main_v19
  let main_c_7 : IVec S_ 1 := constantI S_ 1 1#1
  let main_v21 : IVec S_ 1 := (fun x v => Host.reduce IntOp.andi x v reducesTo_S2097152_S_d0 h_S_) main_v20 main_c_7
  let main_v22 : IVec S_ 1 := andi main_v15 main_v21
  main_v22

def fn {F : FTy → Type} [FloatOps F] (main_arg0 : FVec F S64x16384 .f32) (main_arg1 : IVec S2097152 32) (main_arg2 : IVec S2097152 32) (main_arg3 : FVec F S2097152 .f32) : IVec S_ 1 :=
  let main_v0 : FVec F S64x16384 .f32 := Host.absf main_arg0
  let main_cst : FVec F S_ .f32 := constant S_ .f32 0x7F800000#32
  let main_v1 : FVec F S64x16384 .f32 := broadcastInDim S64x16384 ![] bcast_S_S64x16384 main_cst
  let main_v2 : IVec S64x16384 1 := cmpf .olt main_v0 main_v1
  let main_c : IVec S_ 1 := constantI S_ 1 1#1
  let main_v3 : IVec S_ 1 := (fun x v => Host.reduce IntOp.andi x v reducesTo_S64x16384_S_d0_1 h_S_) main_v2 main_c
  let main_v4 : FVec F S2097152 .f32 := Host.absf main_arg3
  let main_cst_0 : FVec F S_ .f32 := constant S_ .f32 0x7F800000#32
  let main_v5 : FVec F S2097152 .f32 := broadcastInDim S2097152 ![] bcast_S_S2097152 main_cst_0
  let main_v6 : IVec S2097152 1 := cmpf .olt main_v4 main_v5
  let main_c_1 : IVec S_ 1 := constantI S_ 1 1#1
  let main_v7 : IVec S_ 1 := (fun x v => Host.reduce IntOp.andi x v reducesTo_S2097152_S_d0 h_S_) main_v6 main_c_1
  let main_v8 : IVec S_ 1 := andi main_v3 main_v7
  let main_c_2 : IVec S_ 32 := constantI S_ 32 0#32
  let main_v9 : IVec S2097152 32 := broadcastInDim S2097152 ![] bcast_S_S2097152 main_c_2
  let main_v10 : IVec S2097152 1 := cmpi .sge main_arg1 main_v9
  let main_c_3 : IVec S_ 32 := constantI S_ 32 16384#32
  let main_v11 : IVec S2097152 32 := broadcastInDim S2097152 ![] bcast_S_S2097152 main_c_3
  let main_v12 : IVec S2097152 1 := cmpi .slt main_arg1 main_v11
  let main_v13 : IVec S2097152 1 := andi main_v10 main_v12
  let main_c_4 : IVec S_ 1 := constantI S_ 1 1#1
  let main_v14 : IVec S_ 1 := (fun x v => Host.reduce IntOp.andi x v reducesTo_S2097152_S_d0 h_S_) main_v13 main_c_4
  let main_v15 : IVec S_ 1 := andi main_v8 main_v14
  let main_c_5 : IVec S_ 32 := constantI S_ 32 0#32
  fn_part1 (F := F) main_arg2 main_v15 main_c_5
-- ==== Kernel.lean ====
abbrev S64x16384 : Shape := ⟨2, ![64, 16384]⟩
abbrev S2097152 : Shape := ⟨1, ![2097152]⟩
abbrev S_ : Shape := ⟨0, ![]⟩
abbrev S16384x16384 : Shape := ⟨2, ![16384, 16384]⟩
abbrev S2097152x1 : Shape := ⟨2, ![2097152, 1]⟩
abbrev S2097152x2 : Shape := ⟨2, ![2097152, 2]⟩
abbrev S64x2048 : Shape := ⟨2, ![64, 2048]⟩
abbrev S2048x2048 : Shape := ⟨2, ![2048, 2048]⟩

abbrev nBuf : Space → Nat
  | .hbm => 27
  | .vmem => 7
  | .smem => 0
  | _ => 0

abbrev bufTy : (tb : Table) → Fin (tcTables nBuf tb) → BufTy
  | .hbm, ⟨0, _⟩ => ⟨S64x16384, .f32⟩
  | .hbm, ⟨1, _⟩ => ⟨S2097152, .i32⟩
  | .hbm, ⟨2, _⟩ => ⟨S2097152, .i32⟩
  | .hbm, ⟨3, _⟩ => ⟨S2097152, .f32⟩
  | .hbm, ⟨4, _⟩ => ⟨S_, .f32⟩
  | .hbm, ⟨5, _⟩ => ⟨S16384x16384, .f32⟩
  | .hbm, ⟨6, _⟩ => ⟨S_, .i32⟩
  | .hbm, ⟨7, _⟩ => ⟨S2097152, .i32⟩
  | .hbm, ⟨8, _⟩ => ⟨S2097152, .i1⟩
  | .hbm, ⟨9, _⟩ => ⟨S_, .i32⟩
  | .hbm, ⟨10, _⟩ => ⟨S2097152, .i32⟩
  | .hbm, ⟨11, _⟩ => ⟨S2097152, .i32⟩
  | .hbm, ⟨12, _⟩ => ⟨S2097152, .i32⟩
  | .hbm, ⟨13, _⟩ => ⟨S_, .i32⟩
  | .hbm, ⟨14, _⟩ => ⟨S2097152, .i32⟩
  | .hbm, ⟨15, _⟩ => ⟨S2097152, .i1⟩
  | .hbm, ⟨16, _⟩ => ⟨S_, .i32⟩
  | .hbm, ⟨17, _⟩ => ⟨S2097152, .i32⟩
  | .hbm, ⟨18, _⟩ => ⟨S2097152, .i32⟩
  | .hbm, ⟨19, _⟩ => ⟨S2097152, .i32⟩
  | .hbm, ⟨20, _⟩ => ⟨S2097152x1, .i32⟩
  | .hbm, ⟨21, _⟩ => ⟨S2097152x1, .i32⟩
  | .hbm, ⟨22, _⟩ => ⟨S2097152x2, .i32⟩
  | .hbm, ⟨23, _⟩ => ⟨S16384x16384, .f32⟩
  | .hbm, ⟨24, _⟩ => ⟨S16384x16384, .bf16⟩
  | .hbm, ⟨25, _⟩ => ⟨S64x16384, .bf16⟩
  | .hbm, ⟨26, _⟩ => ⟨S64x16384, .f32⟩
  | .local _ .vmem, ⟨0, _⟩ => ⟨S64x2048, .bf16⟩
  | .local _ .vmem, ⟨1, _⟩ => ⟨S64x2048, .bf16⟩
  | .local _ .vmem, ⟨2, _⟩ => ⟨S2048x2048, .bf16⟩
  | .local _ .vmem, ⟨3, _⟩ => ⟨S2048x2048, .bf16⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | _, _ => ⟨S64x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S16384x16384 : S_.BroadcastsInDim S16384x16384 (![] : Fin 0 → Fin S16384x16384.rank)
  bcast_S_S2097152 : S_.BroadcastsInDim S2097152 (![] : Fin 0 → Fin S2097152.rank)
  bcast_S2097152_S2097152x1_0 : S2097152.BroadcastsInDim S2097152x1 (![0] : Fin 1 → Fin S2097152x1.rank)
  concatenates_S2097152x1_S2097152x1_S2097152x2_d1 : Shape.Concatenates [S2097152x1, S2097152x1] S2097152x2 1
  bitsLt_bf16_f32 : FTy.bits .bf16 < FTy.bits .f32
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  scatter_S16384x16384_S2097152x2_S2097152_n_01_01_1_wf : ScatterDims.WF S16384x16384 S2097152x2 S2097152 [] [0, 1] [0, 1] 1
  dot_S64x2048_S2048x2048_S64x2048_1_1_0_0_n_n_wf : DotDims.WF S64x2048 S2048x2048 S64x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S64x16384.size a
  hwx0_0 : ∀ i : grid0.Coords, EltTy.bits .bf16 = 32 ∨ (Rect.block (s := S64x16384) S64x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S16384x16384.size a
  hwx0_1 : ∀ i : grid0.Coords, EltTy.bits .bf16 = 32 ∨ (Rect.block (s := S16384x16384) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x16384.size a
  hwx0_2 : ∀ i : grid0.Coords, EltTy.bits .f32 = 32 ∨ (Rect.block (s := S64x16384) S64x2048.size (cc0_transform_2 i) (hinb0_2 i)).WholeWords (EltTy.packing .f32)

variable [Facts₀]

def scatter_S16384x16384_S2097152x2_S2097152_n_01_01_1 : ScatterDims S16384x16384 S2097152x2 S2097152 where
  updateWindowDims := []
  insertedWindowDims := [0, 1]
  scatterDimsToOperandDims := [0, 1]
  indexVectorDim := 1
  wf := scatter_S16384x16384_S2097152x2_S2097152_n_01_01_1_wf
def dot_S64x2048_S2048x2048_S64x2048_1_1_0_0_n_n : DotDims S64x2048 S2048x2048 S64x2048 where
  lhsContracting := [1]
  rhsContracting := [1]
  lhsNonContracting := [0]
  rhsNonContracting := [0]
  lhsBatch := []
  rhsBatch := []
  wf := dot_S64x2048_S2048x2048_S64x2048_1_1_0_0_n_n_wf

abbrev win0_0 : Pipeline.Window sig grid0 :=
  Pipeline.Window.ofSpec (Memref.whole main_v16) S64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S64x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x16384 : Shape := ⟨2, ![64, 16384]⟩
abbrev S2097152 : Shape := ⟨1, ![2097152]⟩
abbrev S2097152x1 : Shape := ⟨2, ![2097152, 1]⟩
abbrev S16384x64 : Shape := ⟨2, ![16384, 64]⟩
abbrev S_ : Shape := ⟨0, ![]⟩
abbrev S2097152x64 : Shape := ⟨2, ![2097152, 64]⟩

abbrev nBuf : Space → Nat
  | .hbm => 22
  | .vmem => 0
  | .smem => 0
  | _ => 0

abbrev bufTy : (tb : Table) → Fin (tcTables nBuf tb) → BufTy
  | .hbm, ⟨0, _⟩ => ⟨S64x16384, .f32⟩
  | .hbm, ⟨1, _⟩ => ⟨S2097152, .i32⟩
  | .hbm, ⟨2, _⟩ => ⟨S2097152, .i32⟩
  | .hbm, ⟨3, _⟩ => ⟨S2097152, .f32⟩
  | .hbm, ⟨4, _⟩ => ⟨S2097152x1, .f32⟩
  | .hbm, ⟨5, _⟩ => ⟨S16384x64, .f32⟩
  | .hbm, ⟨6, _⟩ => ⟨S_, .i32⟩
  | .hbm, ⟨7, _⟩ => ⟨S2097152, .i32⟩
  | .hbm, ⟨8, _⟩ => ⟨S2097152, .i1⟩
  | .hbm, ⟨9, _⟩ => ⟨S_, .i32⟩
  | .hbm, ⟨10, _⟩ => ⟨S2097152, .i32⟩
  | .hbm, ⟨11, _⟩ => ⟨S2097152, .i32⟩
  | .hbm, ⟨12, _⟩ => ⟨S2097152, .i32⟩
  | .hbm, ⟨13, _⟩ => ⟨S2097152x1, .i32⟩
  | .hbm, ⟨14, _⟩ => ⟨S2097152x64, .f32⟩
  | .hbm, ⟨15, _⟩ => ⟨S2097152x64, .f32⟩
  | .hbm, ⟨16, _⟩ => ⟨S2097152x64, .f32⟩
  | .hbm, ⟨17, _⟩ => ⟨S_, .f32⟩
  | .hbm, ⟨18, _⟩ => ⟨S16384x64, .f32⟩
  | .hbm, ⟨19, _⟩ => ⟨S2097152x1, .i32⟩
  | .hbm, ⟨20, _⟩ => ⟨S16384x64, .f32⟩
  | .hbm, ⟨21, _⟩ => ⟨S64x16384, .f32⟩
  | _, _ => ⟨S64x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S2097152_S2097152x1_0 : S2097152.BroadcastsInDim S2097152x1 (![0] : Fin 1 → Fin S2097152x1.rank)
  transposes_S64x16384_S16384x64_1_0 : S64x16384.Transposes [1, 0] S16384x64
  bcast_S_S2097152 : S_.BroadcastsInDim S2097152 (![] : Fin 0 → Fin S2097152.rank)
  bcast_S2097152x1_S2097152x64_0_1 : S2097152x1.BroadcastsInDim S2097152x64 (![0, 1] : Fin 2 → Fin S2097152x64.rank)
  bcast_S_S16384x64 : S_.BroadcastsInDim S16384x64 (![] : Fin 0 → Fin S16384x64.rank)
  transposes_S16384x64_S64x16384_1_0 : S16384x64.Transposes [1, 0] S64x16384
  gather_S16384x64_S2097152x1_S2097152x64_1_0_n_n_0_1_164_wf : GatherDims.WF S16384x64 S2097152x1 S2097152x64 [1] [0] [] [0] [] 1 ![1, 64]
  scatter_S16384x64_S2097152x1_S2097152x64_1_0_0_1_wf : ScatterDims.WF S16384x64 S2097152x1 S2097152x64 [1] [0] [0] 1

variable [Facts₀]

def gather_S16384x64_S2097152x1_S2097152x64_1_0_n_n_0_1_164 : GatherDims S16384x64 S2097152x1 S2097152x64 where
  offsetDims := [1]
  collapsedSliceDims := [0]
  operandBatchingDims := []
  startIndicesBatchingDims := []
  startIndexMap := [0]
  indexVectorDim := 1
  sliceSizes := ![1, 64]
  wf := gather_S16384x64_S2097152x1_S2097152x64_1_0_n_n_0_1_164_wf
def scatter_S16384x64_S2097152x1_S2097152x64_1_0_0_1 : ScatterDims S16384x64 S2097152x1 S2097152x64 where
  updateWindowDims := [1]
  insertedWindowDims := [0]
  scatterDimsToOperandDims := [0]
  indexVectorDim := 1
  wf := scatter_S16384x64_S2097152x1_S2097152x64_1_0_0_1_wf

class Facts : Prop extends Facts₀ where

variable [Facts]
-- ==== Proof.Guard.lean ====
/-
  What the precondition says of the four arrays, element by element: every x and every value is a real number, and
  every row index and every column index lies in [0, 16384).
-/
import proofs.«426815_j29265907155540_1_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.Guard

open Idealize.ShloMosaic Cert.Pre_finite_inputs

/-- The scalar shape has one index. -/
private instance : Subsingleton S_.Idx := ⟨fun _ _ => funext fun d => d.elim0⟩

/-- The pattern with all exponent bits set, sign and fraction clear, denotes +∞. -/
private theorem inf_bits : Ideal.ofBits .f32 0x7F800000#32 = (⊤ : EReal) := by
  simp [Ideal.ofBits, Ideal.ieee]

/-- An extended real whose absolute value max a (-a) lies strictly below +∞ is a real number: at ⊥ and at ⊤ the
    absolute value is ⊤ itself. -/
private theorem real_of_abs_lt_inf (a : EReal)
    (h : Ideal.cmp .olt (max a (-a)) (Ideal.ofBits .f32 0x7F800000#32) = 1#1) : ∃ r : ℝ, a = (r : EReal) := by
  rw [inf_bits] at h
  have h' : max a (-a) < ⊤ := by
    simpa [Ideal.cmp, StableHlo.Predicate.ofBool_eq_one_iff] using h
  induction a using EReal.rec with
  | bot => simp at h'
  | coe r => exact ⟨r, rfl⟩
  | top => simp at h'

/-- A 32-bit word that is signed-at-least 0 and signed-below 16384 is, read unsigned, below 16384: its signed value
    is its unsigned value, or that less 2³², and the second is negative. -/
private theorem toNat_lt_of_range (a : BitVec 32)
    (h : IntOp.andi (IntOp.cmpi .sge a 0#32) (IntOp.cmpi .slt a 16384#32) = 1#1) : a.toNat < 16384 := by
  obtain ⟨h1, h2⟩ := IntOp.andi_eq_one.1 h
  rw [IntOp.cmpi_sge] at h1
  rw [IntOp.cmpi_slt] at h2
  have z : (0#32 : BitVec 32).toInt = 0 := by decide
  have s : (16384#32 : BitVec 32).toInt = 16384 := by decide
  rw [z] at h1
  rw [s] at h2
  rw [BitVec.toInt_eq_toNat_cond] at h1 h2
  have hlt := a.isLt
  split at h1 <;> omega

/-- The precondition, element by element. -/
theorem of_pre [Cert.Pre_finite_inputs.Facts] (x : FVec Ideal S64x16384 .f32) (rows cols : IVec S2097152 32)
    (vals : FVec Ideal S2097152 .f32)
    (h : Cert.Pre_finite_inputs.fn (F := Ideal) x rows cols vals = fun _ => 1#1) :
    (∀ i, ∃ r : ℝ, x i = (r : EReal)) ∧ (∀ n, ∃ r : ℝ, vals n = (r : EReal))
      ∧ (∀ n, (rows n).toNat < 16384) ∧ (∀ n, (cols n).toNat < 16384) := by
  -- the function at the scalar shape's one index is the conjunction of four reductions by "and"
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  -- each reduction that came out 1 met only 1s; an element being 1 is the comparison holding there
  refine ⟨fun i => real_of_abs_lt_inf (x i) (Host.reduce_andi_all _ _ _ _ _ h1 i),
    fun n => real_of_abs_lt_inf (vals n) (Host.reduce_andi_all _ _ _ _ _ h2 n),
    fun n => toNat_lt_of_range (rows n) (Host.reduce_andi_all _ _ _ _ _ h3 n),
    fun n => toNat_lt_of_range (cols n) (Host.reduce_andi_all _ _ _ _ _ h4 n)⟩

end Cert.Guard

end
-- ==== Proof.SparseDense.lean ====
/-
  The two ways of applying a sparse matrix given by its coordinate list (rows, cols, vals) to the rows of a dense
  matrix x, as functions of the four arrays, index by index, over the extended reals.

  * through the dense matrix: W (o, k) is the sum of vals n over the entries n with rows n = o and cols n = k, and the
    result at (b, o) is the sum over k of x (b, k) * W (o, k);
  * entry by entry: the result at (b, o) is the sum, over the entries n with rows n = o, of vals n * x (b, cols n).

  They agree when every x and every vals is a real number and every column index is in range: the first is the second
  with its entries grouped by their column, and a real factor distributes over a finite sum of reals.
-/
import Idealize.ShloMosaic.PureOps.Ideal
import Idealize.ShloMosaic.Lib.ValueIdx

noncomputable section

namespace Cert.SparseDense

open Idealize.ShloMosaic Idealize.ShloMosaic.ValueIdx

abbrev SX : Shape := ⟨2, ![64, 16384]⟩
abbrev SN : Shape := ⟨1, ![2097152]⟩
abbrev SW : Shape := ⟨2, ![16384, 16384]⟩

/-- The dense matrix: at (o, k), the values of the coordinate entries that sit at row o, column k, added up. -/
def dense (rows cols : SN.Idx → BitVec 32) (vals : SN.Idx → EReal) : SW.Idx → EReal :=
  fun i => ∑ n ∈ Finset.univ.filter (fun n : SN.Idx => (rows n).toNat = (i 0).val ∧ (cols n).toNat = (i 1).val), vals n

/-- X times the transpose of W: at (b, o), the sum over k of X (b, k) * W (o, k). -/
def timesT (X : SX.Idx → EReal) (W : SW.Idx → EReal) : SX.Idx → EReal :=
  fun i => ∑ k : Fin 16384, X (ix2 (i 0) k) * W (ix2 (i 1) k)

/-- The column an entry reads, kept inside the matrix. -/
def col (cols : SN.Idx → BitVec 32) (n : SN.Idx) : Fin 16384 := ⟨min (cols n).toNat 16383, by omega⟩

/-- Entry by entry: at (b, o), the entries of row o, each times the x it reads, added up. -/
def viaEntries (x : SX.Idx → EReal) (rows cols : SN.Idx → BitVec 32) (vals : SN.Idx → EReal) : SX.Idx → EReal :=
  fun i => ∑ n ∈ Finset.univ.filter (fun n : SN.Idx => (rows n).toNat = (i 1).val), vals n * x (ix2 (i 0) (col cols n))

/-- The coercion of the reals into the extended reals goes through a finite sum. -/
private theorem coe_sum_real {ι : Type*} (s : Finset ι) (f : ι → ℝ) :
    ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- With the column index in range, "the entry sits in column k" says the same on the raw index and on the kept one. -/
private theorem toNat_eq_iff_col_eq (cols : SN.Idx → BitVec 32) (hc : ∀ n, (cols n).toNat < 16384) (n : SN.Idx)
    (k : Fin 16384) : (cols n).toNat = k.val ↔ col cols n = k := by
  have h := hc n
  rw [Fin.ext_iff]
  show _ ↔ min (cols n).toNat 16383 = k.val
  rw [Nat.min_eq_left (by omega)]

/-- The identity over the reals: a real factor goes inside the sum over the entries of (row o, column k); on that
    set the column read is k; and the entries of row o, grouped by the column they read, are the entries of row o. -/
private theorem regroup_real (xr : SX.Idx → ℝ) (rows cols : SN.Idx → BitVec 32) (vr : SN.Idx → ℝ)
    (hc : ∀ n, (cols n).toNat < 16384) (b : Fin 64) (o : ℕ) :
    ∑ k : Fin 16384, xr (ix2 b k) *
        (∑ n ∈ Finset.univ.filter (fun n : SN.Idx => (rows n).toNat = o ∧ (cols n).toNat = k.val), vr n)
      = ∑ n ∈ Finset.univ.filter (fun n : SN.Idx => (rows n).toNat = o), vr n * xr (ix2 b (col cols n)) := by
  rw [← Finset.sum_fiberwise (Finset.univ.filter (fun n : SN.Idx => (rows n).toNat = o)) (col cols)]
  refine Finset.sum_congr rfl fun k _ => ?_
  rw [Finset.mul_sum, Finset.filter_filter]
  refine Finset.sum_congr (Finset.filter_congr fun n _ => by rw [toNat_eq_iff_col_eq cols hc]) fun n hn => ?_
  rw [(Finset.mem_filter.mp hn).2.2, mul_comm]

/-- Column k of 16384, as (stretch, place in the stretch): k = 2048 * stretch + place. -/
private def stretchEquiv : Fin 8 × Fin 2048 ≃ Fin 16384 where
  toFun p := ⟨p.1.val * 2048 + p.2.val, by omega⟩
  invFun k := (⟨k.val / 2048, by omega⟩, ⟨k.val % 2048, by omega⟩)
  left_inv p := by
    refine Prod.ext (Fin.ext ?_) (Fin.ext ?_)
    · show (p.1.val * 2048 + p.2.val) / 2048 = p.1.val
      omega
    · show (p.1.val * 2048 + p.2.val) % 2048 = p.2.val
      omega
  right_inv k := by
    refine Fin.ext ?_
    show k.val / 2048 * 2048 + k.val % 2048 = k.val
    omega

/-- Grouping the entries of a row by their column: the two forms agree on real data with columns in range. -/
theorem timesT_dense_eq_viaEntries (x : SX.Idx → EReal) (rows cols : SN.Idx → BitVec 32) (vals : SN.Idx → EReal)
    (hx : ∀ i, ∃ r : ℝ, x i = (r : EReal)) (hv : ∀ n, ∃ r : ℝ, vals n = (r : EReal))
    (hc : ∀ n, (cols n).toNat < 16384) :
    timesT x (dense rows cols vals) = viaEntries x rows cols vals := by
  obtain ⟨xr, rfl⟩ : ∃ xr : SX.Idx → ℝ, x = fun i => ((xr i : ℝ) : EReal) :=
    ⟨fun i => (hx i).choose, funext fun i => (hx i).choose_spec⟩
  obtain ⟨vr, rfl⟩ : ∃ vr : SN.Idx → ℝ, vals = fun n => ((vr n : ℝ) : EReal) :=
    ⟨fun n => (hv n).choose, funext fun n => (hv n).choose_spec⟩
  funext i
  show ∑ k : Fin 16384, ((xr (ix2 (i 0) k) : ℝ) : EReal) *
        (∑ n ∈ Finset.univ.filter (fun n : SN.Idx => (rows n).toNat = (i 1).val ∧ (cols n).toNat = k.val),
          ((vr n : ℝ) : EReal))
      = ∑ n ∈ Finset.univ.filter (fun n : SN.Idx => (rows n).toNat = (i 1).val),
          ((vr n : ℝ) : EReal) * ((xr (ix2 (i 0) (col cols n)) : ℝ) : EReal)
  simp only [coe_sum_real, ← EReal.coe_mul]
  exact congrArg _ (regroup_real xr rows cols vr hc (i 0) (i 1).val)

/-- A sum over 16384 columns taken in eight stretches of 2048. -/
theorem sum_stretches {M : Type*} [AddCommMonoid M] (f : Fin 16384 → M) :
    ∑ k : Fin 16384, f k = ∑ kb : Fin 8, ∑ kk : Fin 2048, f ⟨kb.val * 2048 + kk.val, by omega⟩ := by
  rw [← Equiv.sum_comp stretchEquiv f, Fintype.sum_prod_type]
  exact Finset.sum_congr rfl fun kb _ => Finset.sum_congr rfl fun kk _ => rfl

end Cert.SparseDense

end
-- ==== Proof.DenseScatter.lean ====
/-
  What the kernel's two staged arrays hold when the region is entered: the first is x itself (a change of float format
  is the identity on the extended reals); the second is the dense matrix, the scatter-add of the values at their
  (row, column) positions into zeros, when the row and column indices are in range (an index in range is not moved by
  the wrap of negative indices, and its update lands inside the matrix).
-/
import proofs.«426815_j29265907155540_1_alg».proof.Proof.Gen.KernelIdeal.Frame
import proofs.«426815_j29265907155540_1_alg».proof.Proof.SparseDense
import Idealize.ShloMosaic.Lib.StableHlo.Run
import Idealize.ShloMosaic.Lib.Pipeline.Value
import Idealize.ShloMosaic.PureOps.Ideal.Laws

noncomputable section

namespace Cert.KernelIdeal.Staged

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- A row or column index with a negative value moved up by the matrix side. -/
private def wrap (v : IVec S2097152 32) : IVec S2097152 32 :=
  select (cmpi .slt v (broadcastInDim S2097152 ![] bcast_S_S2097152 (constantI S_ 32 0#32)))
    (addi v (broadcastInDim S2097152 ![] bcast_S_S2097152 (constantI S_ 32 16384#32))) v

/-- The two index vectors as the two columns of one array. -/
private def pairIdx (r k : IVec S2097152 32) : IVec S2097152x2 32 :=
  concatenate S2097152x2 1
    [⟨S2097152x1, broadcastInDim S2097152x1 ![0] bcast_S2097152_S2097152x1_0 (wrap r)⟩,
     ⟨S2097152x1, broadcastInDim S2097152x1 ![0] bcast_S2097152_S2097152x1_0 (wrap k)⟩]
    concatenates_S2097152x1_S2097152x1_S2097152x2_d1

/-- The scatter's dimension numbers. -/
private abbrev dW : ScatterDims S16384x16384 S2097152x2 S2097152 := scatter_S16384x16384_S2097152x2_S2097152_n_01_01_1

set_option maxHeartbeats 1000000 in
/-- The second staged array as the host operations compute it: the scatter-add of the values, at the index array
    made of the two wrapped index vectors, into the zero matrix, then the change of float format. -/
private theorem W_term (c : Dev nD) :
    @Eq (S16384x16384.Idx → EReal) (V m c main_v15)
      (truncf (F := Ideal) .bf16 (Host.scatterAdd dW
          (broadcastInDim S16384x16384 ![] bcast_S_S16384x16384 (constant S_ .f32 0x00000000#32))
          (pairIdx (m ((c : Thread nD τ).loc main_arg1)) (m ((c : Thread nD τ).loc main_arg2)))
          (m ((c : Thread nD τ).loc main_arg3))) bitsLt_bf16_f32) := by
  dsimp only [Gen.V, Gen.hostOps0]
  after_results_simp
  repeat (first
    | rw [StableHlo.nullary_result] | rw [StableHlo.unary_result] | rw [StableHlo.binary_result] | rw [StableHlo.ternary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))
  rfl

/-- A word below 16384 reads the same signed and unsigned. -/
private theorem toInt_small {a : BitVec 32} (ha : a.toNat < 16384) : a.toInt = (a.toNat : Int) := by
  rw [BitVec.toInt_eq_toNat_cond, if_pos (by omega)]

/-- An index in range is not moved by the wrap. -/
private theorem wrap_of_lt (v : IVec S2097152 32) (n : S2097152.Idx) (h : (v n).toNat < 16384) : wrap v n = v n := by
  show Scalar.select (IntOp.cmpi .slt (v n) 0#32) (IntOp.addi (v n) 16384#32) (v n) = v n
  have hs : (v n).slt 0#32 = false := by
    unfold BitVec.slt
    rw [decide_eq_false_iff_not, toInt_small h, BitVec.toInt_zero]; omega
  have hc : IntOp.cmpi .slt (v n) 0#32 = 0#1 := by
    show BitVec.ofBool ((v n).slt 0#32) = 0#1
    rw [hs]; rfl
  rw [hc]; rfl

/-- The index array read in its first column is the wrapped row index. -/
private theorem pairIdx_zero (r k : IVec S2097152 32) (n : S2097152.Idx) :
    pairIdx r k (ix2 (n 0) 0) = wrap r n := by
  unfold pairIdx
  rw [concatenate_pair_apply_left (s₁ := S2097152x1) (s₂ := S2097152x1) (1 : Fin S2097152x2.rank) _ _ _ (ix2 (n 0) 0) rfl (ix2 (n 0) (0 : Fin 1))
    (by intro b; match b with | ⟨0, _⟩ => rfl | ⟨1, _⟩ => rfl)]
  exact broadcastInDim_apply _ _ _ _ n (by
    intro a; match a with
      | ⟨0, h0⟩ =>
        have h : ¬ S2097152.size ⟨0, h0⟩ = 1 := by show ¬ (2097152 : Nat) = 1; decide
        rw [if_neg h]; rfl)

/-- The index array read in its second column is the wrapped column index. -/
private theorem pairIdx_one (r k : IVec S2097152 32) (n : S2097152.Idx) :
    pairIdx r k (ix2 (n 0) 1) = wrap k n := by
  unfold pairIdx
  rw [concatenate_pair_apply_right (s₁ := S2097152x1) (s₂ := S2097152x1) (1 : Fin S2097152x2.rank) _ _ _ (ix2 (n 0) 1) rfl rfl (ix2 (n 0) (0 : Fin 1))
    (by intro b hb; match b, hb with | ⟨0, _⟩, _ => rfl | ⟨1, _⟩, hb => exact absurd rfl hb) rfl]
  exact broadcastInDim_apply _ _ _ _ n (by
    intro a; match a with
      | ⟨0, h0⟩ =>
        have h : ¬ S2097152.size ⟨0, h0⟩ = 1 := by show ¬ (2097152 : Nat) = 1; decide
        rw [if_neg h]; rfl)

/-- The operand keeps no axis: every axis is an inserted one, so the window coordinate is zero. -/
private theorem window_zero (j : S2097152.Idx) (a : Fin S16384x16384.rank) : dW.window j a = 0 := by
  have hk : dW.sKept = [] := by decide
  unfold ScatterDims.window
  exact dif_neg (by rw [hk]; exact List.not_mem_nil)

/-- Where update n reads component c of its start index: row n of the index array, column c. -/
private theorem siIdx_eq (j : S2097152.Idx) (c : Fin dW.scatterDimsToOperandDims.length) :
    dW.siIdx j c = ix2 (j 0) (⟨c.val, c.isLt⟩ : Fin 2) := by
  funext b
  match b with
  | ⟨0, hb⟩ =>
    have h : ¬ (⟨0, hb⟩ : Fin S2097152x2.rank).val = dW.indexVectorDim := by show ¬ (0 : Nat) = 1; decide
    unfold ScatterDims.siIdx
    rw [dif_neg h]
    unfold ScatterDims.siCoord
    apply Fin.ext
    show (j _).val = (j 0).val
    exact congrArg (fun x => (j x).val) (Subsingleton.elim _ _)
  | ⟨1, hb⟩ =>
    have h : (⟨1, hb⟩ : Fin S2097152x2.rank).val = dW.indexVectorDim := rfl
    unfold ScatterDims.siIdx
    rw [dif_pos h]
    rfl

/-- The start of update n's window on the row axis: the index array at row n, first column, read signed. -/
private theorem start_zero (j : S2097152.Idx) (idx : IVec S2097152x2 32) :
    dW.start j idx 0 = (idx (ix2 (j 0) 0)).toInt := by
  unfold ScatterDims.start
  rw [dif_pos (by decide), siIdx_eq]
  rfl

/-- The start of update n's window on the column axis: the index array at row n, second column, read signed. -/
private theorem start_one (j : S2097152.Idx) (idx : IVec S2097152x2 32) :
    dW.start j idx 1 = (idx (ix2 (j 0) 1)).toInt := by
  unfold ScatterDims.start
  rw [dif_pos (by decide), siIdx_eq]
  rfl

/-- With both indices in range, update n lands at (row, column). -/
private theorem resultIdx_iff (j : S2097152.Idx) (idx : IVec S2097152x2 32) (i : S16384x16384.Idx)
    (h0 : (idx (ix2 (j 0) 0)).toNat < 16384) (h1 : (idx (ix2 (j 0) 1)).toNat < 16384) :
    dW.resultIdx? j idx = some i
      ↔ (idx (ix2 (j 0) 0)).toNat = (i 0).val ∧ (idx (ix2 (j 0) 1)).toNat = (i 1).val := by
  have e0 : dW.start j idx 0 + (dW.window j 0 : Int) = ((idx (ix2 (j 0) 0)).toNat : Int) := by
    rw [start_zero, window_zero, toInt_small h0]; simp
  have e1 : dW.start j idx 1 + (dW.window j 1 : Int) = ((idx (ix2 (j 0) 1)).toNat : Int) := by
    rw [start_one, window_zero, toInt_small h1]; simp
  have hcond : ∀ a, 0 ≤ dW.start j idx a + dW.window j a
      ∧ dW.start j idx a + dW.window j a < S16384x16384.size a := by
    intro a
    match a with
    | ⟨0, _⟩ =>
      show 0 ≤ dW.start j idx 0 + dW.window j 0 ∧ dW.start j idx 0 + dW.window j 0 < ((16384 : Nat) : Int)
      rw [e0]; omega
    | ⟨1, _⟩ =>
      show 0 ≤ dW.start j idx 1 + dW.window j 1 ∧ dW.start j idx 1 + dW.window j 1 < ((16384 : Nat) : Int)
      rw [e1]; omega
  unfold ScatterDims.resultIdx?
  rw [dif_pos hcond, Option.some_inj]
  constructor
  · intro h
    have a0 := congrArg (fun f => (f 0).val) h
    have a1 := congrArg (fun f => (f 1).val) h
    simp only [e0, e1, Int.toNat_natCast] at a0 a1
    exact ⟨a0, a1⟩
  · rintro ⟨a0, a1⟩
    funext a
    match a with
    | ⟨0, _⟩ =>
      apply Fin.ext
      show (dW.start j idx 0 + dW.window j 0).toNat = (i 0).val
      rw [e0, Int.toNat_natCast]; exact a0
    | ⟨1, _⟩ =>
      apply Fin.ext
      show (dW.start j idx 1 + dW.window j 1).toNat = (i 1).val
      rw [e1, Int.toNat_natCast]; exact a1

/-- The zero matrix. -/
private theorem zeros_eq :
    (broadcastInDim S16384x16384 ![] bcast_S_S16384x16384 (constant (F := Ideal) S_ .f32 0x00000000#32)
      : S16384x16384.Idx → EReal) = fun _ => 0 := by
  funext j
  unfold broadcastInDim constant
  rw [Ideal.ofBits_def, Ideal.ofBits_zero_f32]

/-- A scatter-add into an operand that is zero everywhere, then the change of float format, read at an element:
    the updates that land there, added up — the landing test in whatever equivalent form. -/
private theorem scatter_into_zeros {s si su : Shape} (d : ScatterDims s si su) {w : Nat}
    (x : FVec Ideal s .f32) (hx : ∀ i, x i = (0 : EReal)) (idx : IVec si w) (upd : FVec Ideal su .f32)
    (h : FTy.bits .bf16 < FTy.bits .f32) (i : s.Idx) (p : su.Idx → Prop) [DecidablePred p]
    (hp : ∀ j, d.resultIdx? j idx = some i ↔ p j) :
    truncf (F := Ideal) .bf16 (Host.scatterAdd d x idx upd) h i = ∑ j ∈ Finset.univ.filter p, upd j := by
  show x i + ∑ j ∈ Finset.univ.filter (fun j => d.resultIdx? j idx = some i), upd j = _
  rw [hx, zero_add]
  exact Finset.sum_congr (Finset.filter_congr fun j _ => hp j) fun _ _ => rfl

/-- The first staged array is x. -/
theorem X_eq (c : Dev nD) :
    (V m c main_v16 : S64x16384.Idx → EReal) = m ((c : Thread nD τ).loc main_arg0) := by
  dsimp only [Gen.V, Gen.hostOps0]
  after_results
  rfl

/-- The second staged array is the dense matrix of the coordinate list. -/
theorem W_eq (c : Dev nD)
    (hr : ∀ n, ((m ((c : Thread nD τ).loc main_arg1) : S2097152.Idx → BitVec 32) n).toNat < 16384)
    (hc : ∀ n, ((m ((c : Thread nD τ).loc main_arg2) : S2097152.Idx → BitVec 32) n).toNat < 16384) :
    (V m c main_v15 : S16384x16384.Idx → EReal)
      = Cert.SparseDense.dense (m ((c : Thread nD τ).loc main_arg1)) (m ((c : Thread nD τ).loc main_arg2))
          (m ((c : Thread nD τ).loc main_arg3)) := by
  rw [W_term]
  funext i
  -- update n lands at i exactly when its row and column are i's coordinates
  have key : ∀ n : S2097152.Idx,
      dW.resultIdx? n (pairIdx (m ((c : Thread nD τ).loc main_arg1)) (m ((c : Thread nD τ).loc main_arg2))) = some i
        ↔ ((m ((c : Thread nD τ).loc main_arg1) : S2097152.Idx → BitVec 32) n).toNat = (i 0).val
          ∧ ((m ((c : Thread nD τ).loc main_arg2) : S2097152.Idx → BitVec 32) n).toNat = (i 1).val := by
    intro n
    have e0 : pairIdx (m ((c : Thread nD τ).loc main_arg1)) (m ((c : Thread nD τ).loc main_arg2)) (ix2 (n 0) 0)
        = (m ((c : Thread nD τ).loc main_arg1) : S2097152.Idx → BitVec 32) n := by
      rw [pairIdx_zero, wrap_of_lt _ _ (hr n)]
    have e1 : pairIdx (m ((c : Thread nD τ).loc main_arg1)) (m ((c : Thread nD τ).loc main_arg2)) (ix2 (n 0) 1)
        = (m ((c : Thread nD τ).loc main_arg2) : S2097152.Idx → BitVec 32) n := by
      rw [pairIdx_one, wrap_of_lt _ _ (hc n)]
    have h := resultIdx_iff n (pairIdx (m ((c : Thread nD τ).loc main_arg1)) (m ((c : Thread nD τ).loc main_arg2))) i
      (by rw [e0]; exact hr n) (by rw [e1]; exact hc n)
    rw [e0, e1] at h
    exact h
  -- the operand is the zero matrix, and the change of float format is the identity
  exact scatter_into_zeros dW _ (fun j => congrFun zeros_eq j) _ _ _ i _ key

end Cert.KernelIdeal.Staged

end
-- ==== Proof.EntryScatter.lean ====
/-
  The reference, read at an index: with row and column indices in range, the gather reads x at the entry's column, the
  scatter-add puts entry n's products into row rows n, and the two transposes cancel: the result at (b, o) is the sum
  over the entries n of row o of vals n * x (b, cols n).
-/
import proofs.«426815_j29265907155540_1_alg».proof.Proof.Gen.ReferenceIdeal.Read
import proofs.«426815_j29265907155540_1_alg».proof.Proof.SparseDense
import Idealize.ShloMosaic.Lib.Pipeline.Value
import Idealize.ShloMosaic.Lib.ValueIdxRank1
import Idealize.ShloMosaic.Lib.StableHlo.Predicate
import Idealize.ShloMosaic.PureOps.Ideal.Laws

noncomputable section

namespace Cert.ReferenceIdeal.Entries

open Cert.ReferenceIdeal Cert.ReferenceIdeal.Gen Idealize.ShloMosaic Idealize.ShloMosaic.ValueIdx

private abbrev sd := scatter_S16384x64_S2097152x1_S2097152x64_1_0_0_1
private abbrev gd := gather_S16384x64_S2097152x1_S2097152x64_1_0_n_n_0_1_164

/-- The column index (n, 0) of the index arrays. -/
private abbrev colIdx (n : Fin 2097152) : S2097152x1.Idx := ix2 (n0 := 2097152) (n1 := 1) n 0

private theorem sd_start0 (idx : IVec S2097152x1 32) (j : S2097152x64.Idx) :
    sd.start j idx 0 = (idx (colIdx (j 0))).toInt := by
  unfold ScatterDims.start
  rw [dif_pos (show (0 : Fin 2) ∈ sd.scatterDimsToOperandDims from List.mem_singleton.mpr rfl)]
  congr 2
  funext b; refine Fin.ext ?_
  match b with
  | ⟨0, _⟩ => rfl
  | ⟨1, _⟩ => rfl

private theorem sd_start1 (idx : IVec S2097152x1 32) (j : S2097152x64.Idx) :
    sd.start j idx 1 = 0 := by
  unfold ScatterDims.start
  rw [dif_neg (show ¬ (1 : Fin 2) ∈ sd.scatterDimsToOperandDims by decide)]

private theorem sd_window0 (j : S2097152x64.Idx) : sd.window j 0 = 0 := by
  unfold ScatterDims.window
  rw [dif_neg (show ¬ (0 : Fin 2) ∈ sd.sKept by decide)]

private theorem sd_window1 (j : S2097152x64.Idx) : sd.window j 1 = (j 1).val := by
  unfold ScatterDims.window
  rw [dif_pos (show (1 : Fin 2) ∈ sd.sKept by decide)]
  rfl

/-- With its start row inside the operand, update (n, b) lands at row (start row), column b. -/
private theorem sd_resultIdx (idx : IVec S2097152x1 32) (j : S2097152x64.Idx) (i : S16384x64.Idx)
    (h : (idx (colIdx (j 0))).toNat < 16384) :
    sd.resultIdx? j idx = some i ↔ (idx (colIdx (j 0))).toNat = (i 0).val ∧ (j 1).val = (i 1).val := by
  have hti : (idx (colIdx (j 0))).toInt = ((idx (colIdx (j 0))).toNat : Int) :=
    StableHlo.Predicate.toInt_eq_toNat_of_lt (by omega)
  have hj1 : (j 1).val < 64 := (j 1).isLt
  have hall : ∀ a, 0 ≤ sd.start j idx a + sd.window j a ∧ sd.start j idx a + sd.window j a < S16384x64.size a := by
    rw [Fin.forall_fin_two]
    rw [sd_start0, sd_start1, sd_window0, sd_window1, hti]
    refine ⟨⟨by omega, ?_⟩, ⟨by omega, ?_⟩⟩
    · show ((idx (colIdx (j 0))).toNat : Int) + ((0 : Nat) : Int) < ((16384 : Nat) : Int)
      omega
    · show (0 : Int) + ((j 1).val : Int) < ((64 : Nat) : Int)
      omega
  unfold ScatterDims.resultIdx?
  rw [dif_pos hall, Option.some.injEq, funext_iff, Fin.forall_fin_two, Fin.ext_iff, Fin.ext_iff]
  show (sd.start j idx 0 + sd.window j 0).toNat = (i 0).val ∧ (sd.start j idx 1 + sd.window j 1).toNat = (i 1).val ↔ _
  rw [sd_start0, sd_start1, sd_window0, sd_window1, hti]
  constructor
  · rintro ⟨h0, h1⟩; exact ⟨by omega, by omega⟩
  · rintro ⟨h0, h1⟩; exact ⟨by omega, by omega⟩

private theorem gd_coord0 (idx : IVec S2097152x1 32) (j : S2097152x64.Idx) :
    (gd.operandIdx j idx 0).val = min (idx (colIdx (j 0))).toInt.toNat 16383 := by
  show gd.start j idx 0 + gd.batchCoord j 0 + gd.offCoord j 0 = _
  rw [GatherDims.batchCoord_eq_zero _ _ _ List.not_mem_nil, Nat.add_zero,
    GatherDims.offCoord_eq_zero _ _ _ (show ¬ (0 : Fin 2) ∈ gd.sKept by decide), Nat.add_zero]
  unfold GatherDims.start
  rw [dif_pos (show (0 : Fin 2) ∈ gd.startIndexMap from List.mem_singleton.mpr rfl)]
  have hsi : gd.siIdx j ⟨List.idxOf (0 : Fin 2) gd.startIndexMap,
      List.idxOf_lt_length_iff.2 (List.mem_singleton.mpr rfl)⟩ = colIdx (j 0) := by
    funext b; refine Fin.ext ?_
    match b with
    | ⟨0, _⟩ => rfl
    | ⟨1, _⟩ => rfl
  rw [hsi]
  rfl

private theorem gd_coord1 (idx : IVec S2097152x1 32) (j : S2097152x64.Idx) :
    (gd.operandIdx j idx 1).val = (j 1).val := by
  show gd.start j idx 1 + gd.batchCoord j 1 + gd.offCoord j 1 = _
  rw [GatherDims.batchCoord_eq_zero _ _ _ List.not_mem_nil, Nat.add_zero]
  unfold GatherDims.start
  rw [dif_neg (show ¬ (1 : Fin 2) ∈ gd.startIndexMap by decide), Nat.zero_add]
  unfold GatherDims.offCoord
  rw [dif_pos (show (1 : Fin 2) ∈ gd.sKept by decide)]
  rfl

/-- The gather reads row (start index of n, read signed, clamped into the operand), column b. -/
private theorem gd_operandIdx (idx : IVec S2097152x1 32) (j : S2097152x64.Idx) :
    gd.operandIdx j idx
      = ix2 (n0 := 16384) (n1 := 64) ⟨min (idx (colIdx (j 0))).toInt.toNat 16383, by omega⟩ (j 1) := by
  funext a; refine Fin.ext ?_
  match a with
  | ⟨0, _⟩ => exact gd_coord0 idx j
  | ⟨1, _⟩ => exact gd_coord1 idx j

/-- A sum over the pairs (n, c) with a condition on n and c = b is the sum over the n with that condition, at (n, b). -/
private theorem sum_pairs (r : Fin 2097152 → Nat) (f : S2097152x64.Idx → EReal) (o : Nat) (b : Fin 64) :
    ∑ j ∈ Finset.univ.filter (fun j : S2097152x64.Idx => r (j 0) = o ∧ (j 1).val = b.val), f j
      = ∑ n ∈ Finset.univ.filter (fun n : Fin 2097152 => r n = o), f (ix2 (n0 := 2097152) (n1 := 64) n b) := by
  rw [Finset.sum_filter, sum_idx2 (n0 := 2097152) (n1 := 64), Finset.sum_filter]
  refine Finset.sum_congr rfl fun n _ => ?_
  by_cases hn : r n = o
  · rw [if_pos hn]
    have : ∀ c : Fin 64, (if r n = o ∧ c.val = b.val then f (ix2 (n0 := 2097152) (n1 := 64) n c) else 0)
        = if c = b then f (ix2 (n0 := 2097152) (n1 := 64) n c) else 0 := by
      intro c
      by_cases hc : c = b
      · rw [if_pos hc, if_pos ⟨hn, by rw [hc]⟩]
      · rw [if_neg hc, if_neg (fun h => hc (Fin.ext h.2))]
    rw [Finset.sum_congr rfl fun c _ => this c, Finset.sum_ite_eq' Finset.univ b, if_pos (Finset.mem_univ b)]
  · rw [if_neg hn]
    refine Finset.sum_eq_zero fun c _ => ?_
    rw [if_neg (fun h => hn h.1)]

/-- A filtered sum over the entries, taken over their coordinate. -/
private theorem sum_entries (r : Cert.SparseDense.SN.Idx → Nat) (g : Cert.SparseDense.SN.Idx → EReal) (o : Nat) :
    ∑ n ∈ Finset.univ.filter (fun n : Fin 2097152 => r (ix1 n) = o), g (ix1 n)
      = ∑ n ∈ Finset.univ.filter (fun n : Cert.SparseDense.SN.Idx => r n = o), g n := by
  rw [Finset.sum_filter, Finset.sum_filter]
  exact Equiv.sum_comp (idxEquiv1 (n := 2097152)).symm (fun n => if r n = o then g n else 0)

/-- A word below 2³¹ is not negative: the signed test against zero fails. -/
private theorem slt_zero_of_lt (a : BitVec 32) (ha : a.toNat < 2 ^ 31) : IntOp.cmpi .slt a 0#32 = 0#1 := by
  apply eq_zero_of_ne_one
  intro h
  have h' := (StableHlo.Predicate.slt_iff_toNat ha (by decide)).mp h
  rw [show (0#32 : BitVec 32).toNat = 0 from rfl] at h'
  omega

/-- A column index in range is not wrapped. -/
private theorem v6_eq (x2 : IVec S2097152 32) (n : S2097152.Idx) (h : (x2 n).toNat < 16384) :
    Read.val_main_v6 (F := Ideal) x2 n = x2 n := by
  rw [Read.val_main_v6_apply, Read.val_main_v3_apply, Read.val_main_v2_apply, Read.val_main_c_apply,
    slt_zero_of_lt _ (by omega), select_zero]

private theorem v7_eq (x2 : IVec S2097152 32) (n : Fin 2097152) (h : (x2 (ix1 n)).toNat < 16384) :
    Read.val_main_v7 (F := Ideal) x2 (colIdx n) = x2 (ix1 n) := by
  rw [Read.val_main_v7_apply]
  have : Read.idx_main_v7 (colIdx n) = ix1 n := by
    funext a; match a with | ⟨0, _⟩ => rfl
  rw [this, v6_eq x2 _ h]

private theorem v12_eq (x1 : IVec S2097152 32) (n : Fin 2097152) :
    Read.val_main_v12 (F := Ideal) x1 (colIdx n) = x1 (ix1 n) := by
  rw [Read.val_main_v12_apply]
  congr 1
  funext a; match a with | ⟨0, _⟩ => rfl

/-- The gathered row of entry n, at b: x at (b, the entry's column). -/
private theorem v8_eq (x0 : FVec Ideal S64x16384 .f32) (x2 : IVec S2097152 32) (n : Fin 2097152) (b : Fin 64)
    (h : (x2 (ix1 n)).toNat < 16384) :
    Read.val_main_v8 (F := Ideal) x0 x2 (ix2 (n0 := 2097152) (n1 := 64) n b)
      = x0 (ix2 (n0 := 64) (n1 := 16384) b (Cert.SparseDense.col x2 (ix1 n))) := by
  unfold Read.val_main_v8 Host.gather
  rw [gd_operandIdx, Read.val_main_v1_apply]
  show x0 (Read.idx_main_v1 (ix2 (n0 := 16384) (n1 := 64)
    ⟨min (Read.val_main_v7 (F := Ideal) x2 (colIdx n)).toInt.toNat 16383, by omega⟩ b)) = _
  have hcol : min (Read.val_main_v7 (F := Ideal) x2 (colIdx n)).toInt.toNat 16383 = min (x2 (ix1 n)).toNat 16383 := by
    rw [v7_eq x2 n h, StableHlo.Predicate.toInt_eq_toNat_of_lt (by omega), Int.toNat_natCast]
  congr 1
  funext a
  match a with
  | ⟨0, _⟩ => rfl
  | ⟨1, _⟩ => exact Fin.ext hcol

/-- The update of entry n at b: the entry's value times the x it reads. -/
private theorem v10_eq (x0 : FVec Ideal S64x16384 .f32) (x2 : IVec S2097152 32) (x3 : FVec Ideal S2097152 .f32)
    (n : Fin 2097152) (b : Fin 64) (h : (x2 (ix1 n)).toNat < 16384) :
    Read.val_main_v10 (F := Ideal) x0 x2 x3 (ix2 (n0 := 2097152) (n1 := 64) n b)
      = x3 (ix1 n) * x0 (ix2 (n0 := 64) (n1 := 16384) b (Cert.SparseDense.col x2 (ix1 n))) := by
  rw [Read.val_main_v10_apply, Ideal.mulf_def, v8_eq x0 x2 n b h, Read.val_main_v9_apply, Read.val_main_v0_apply]
  congr 2
  funext a; match a with | ⟨0, _⟩ => rfl

/-- The accumulating scatter at (o, b), its start rows in range: the operand there plus the updates (n, b) of the
    entries n whose start row is o. -/
private theorem scatter_at (v : S16384x64.Idx → EReal) (idx : IVec S2097152x1 32) (upd : S2097152x64.Idx → EReal)
    (k : S16384x64.Idx) (hidx : ∀ n, (idx (colIdx n)).toNat < 16384) :
    Ideal.hostScatterAdd sd v idx upd k
      = v k + ∑ n ∈ Finset.univ.filter (fun n : Fin 2097152 => (idx (colIdx n)).toNat = (k 0).val),
          upd (ix2 (n0 := 2097152) (n1 := 64) n (k 1)) := by
  unfold Ideal.hostScatterAdd
  refine congrArg (fun t => v k + t) ?_
  rw [Finset.filter_congr (fun j _ => sd_resultIdx idx j k (hidx _))]
  exact sum_pairs (fun n => (idx (colIdx n)).toNat) upd (k 0).val (k 1)

private theorem scatterAdd_ideal (v : FVec Ideal S16384x64 .f32) (idx : IVec S2097152x1 32)
    (upd : FVec Ideal S2097152x64 .f32) :
    Host.scatterAdd sd v idx upd = Ideal.hostScatterAdd sd v idx upd := rfl

private theorem v13_eq (x0 : FVec Ideal S64x16384 .f32) (x1 x2 : IVec S2097152 32) (x3 : FVec Ideal S2097152 .f32)
    (hr : ∀ n, (x1 n).toNat < 16384) (hc : ∀ n, (x2 n).toNat < 16384) (k : S16384x64.Idx) :
    Read.val_main_v13 (F := Ideal) x0 x1 x2 x3 k
      = ∑ n ∈ Finset.univ.filter (fun n : Cert.SparseDense.SN.Idx => (x1 n).toNat = (k 0).val),
          x3 n * x0 (ix2 (n0 := 64) (n1 := 16384) (k 1) (Cert.SparseDense.col x2 n)) := by
  unfold Read.val_main_v13
  rw [scatterAdd_ideal, scatter_at _ _ _ k (fun n => by rw [v12_eq]; exact hr _)]
  rw [Read.val_main_v11_apply, Read.val_main_cst_apply, Ideal.ofBits_def, Ideal.ofBits_zero_f32, zero_add]
  have h2 : ∀ n : Fin 2097152, (Read.val_main_v12 (F := Ideal) x1 (colIdx n)).toNat = (k 0).val
      ↔ (x1 (ix1 n)).toNat = (k 0).val := fun n => by rw [v12_eq]
  rw [Finset.filter_congr (fun n _ => h2 n)]
  rw [Finset.sum_congr rfl (fun n _ => v10_eq x0 x2 x3 n (k 1) (hc _))]
  exact sum_entries (fun n => (x1 n).toNat)
    (fun n => x3 n * x0 (ix2 (n0 := 64) (n1 := 16384) (k 1) (Cert.SparseDense.col x2 n))) (k 0).val

/-- The reference's result is the entry-by-entry form. -/
theorem reference_eq (x0 : FVec Ideal S64x16384 .f32) (x1 x2 : IVec S2097152 32) (x3 : FVec Ideal S2097152 .f32)
    (hr : ∀ n, (x1 n).toNat < 16384) (hc : ∀ n, (x2 n).toNat < 16384) :
    Cert.ReferenceIdeal.Read.val_main_v14 (F := Ideal) x0 x1 x2 x3 = Cert.SparseDense.viaEntries x0 x1 x2 x3 := by
  funext i
  rw [Read.val_main_v14_apply]
  show _ = ∑ n ∈ Finset.univ.filter (fun n : Cert.SparseDense.SN.Idx => (x1 n).toNat = (i 1).val),
    x3 n * x0 (ix2 (n0 := 64) (n1 := 16384) (i 0) (Cert.SparseDense.col x2 n))
  exact v13_eq x0 x1 x2 x3 hr hc (Read.idx_main_v14 i)

end Cert.ReferenceIdeal.Entries

end
-- ==== Proof.LibContrOne.lean ====
/-
  The contraction index of a product that contracts ONE axis of its left operand: its shape has rank one, and its one
  extent is that axis's. General in the shapes and the dimension record.
-/
import Idealize.ShloMosaic.PureOps.Dims

namespace Idealize.ShloMosaic.PlainDot

open Idealize.ShloMosaic

variable {sl sr so : Shape}

/-- One contracted axis: the contraction shape has rank one. -/
theorem contr_rank_one (d : DotDims sl sr so) {c : Fin sl.rank} (hlc : d.lhsContracting = [c]) : d.contr.rank = 1 := by
  rw [d.rank_contr, hlc]; rfl

/-- … and its extent is the contracted axis's. -/
theorem contr_size_zero (d : DotDims sl sr so) {c : Fin sl.rank} (hlc : d.lhsContracting = [c]) (h : 0 < d.contr.rank) :
    d.contr.size ⟨0, h⟩ = sl.size c := by
  simp [DotDims.contr, hlc]

end Idealize.ShloMosaic.PlainDot
-- ==== Proof.LibDotABt.lean ====
/-
  Matrix products whose right operand is stored [out, in] (contracted on its last axis), and head-batched products,
  into a zero accumulator, read at an index at the ideal values as a sum over the contracted axis:

    [M, K] x [N, K]       -> [M, N]      at (p, q)    : the sum over k of l (p, k) * r (q, k)
    [B, M, K] x [B, N, K] -> [B, M, N]   at (b, p, q) : the sum over k of l (b, p, k) * r (b, q, k)
    [B, M, K] x [B, K, N] -> [B, M, N]   at (b, p, q) : the sum over k of l (b, p, k) * r (b, k, q)

  General in the extents, the element types and the precision; the dimension record enters only through its six lists.
  Beside them: where a batch axis and a non-contracting axis of either operand read the result index.
  Nothing here depends on a kernel.
-/
import Idealize.ShloMosaic.PureOps.Ideal.Laws
import Idealize.ShloMosaic.Lib.ValueIdx
import proofs.«426815_j29265907155540_1_alg».proof.Proof.LibContrOne

namespace Idealize.ShloMosaic.DotABt

open Idealize.ShloMosaic Idealize.ShloMosaic.ValueIdx Idealize.ShloMosaic.PlainDot

variable {sl sr so : Shape}

private theorem idx_val_congr (j : so.Idx) (p q : Nat) (hp : p < so.rank) (hq : q < so.rank) (h : p = q) :
    (j ⟨p, hp⟩).val = (j ⟨q, hq⟩).val := by subst h; rfl

/-- A left batch axis reads the result index at the axis's place among the batch axes. -/
theorem lhsIdx_val_batch (d : DotDims sl sr so) {a : Fin sl.rank} (hmem : a ∈ d.lhsBatch) (j : so.Idx) (k : d.contr.Idx)
    (p : Nat) (hp : p < so.rank) (e : d.lhsBatch.idxOf a = p) : (d.lhsIdx j k a).val = (j ⟨p, hp⟩).val := by
  unfold DotDims.lhsIdx
  rw [dif_pos hmem]
  simp only [Fin.val_cast]
  exact idx_val_congr j _ _ _ _ e

/-- A left non-contracting axis reads the result index after the batch axes. -/
theorem lhsIdx_val_non (d : DotDims sl sr so) {a : Fin sl.rank} (hnb : a ∉ d.lhsBatch) (hmem : a ∈ d.lhsNonContracting)
    (j : so.Idx) (k : d.contr.Idx) (p : Nat) (hp : p < so.rank)
    (e : d.lhsBatch.length + d.lhsNonContracting.idxOf a = p) : (d.lhsIdx j k a).val = (j ⟨p, hp⟩).val := by
  unfold DotDims.lhsIdx
  rw [dif_neg hnb, dif_pos hmem]
  simp only [Fin.val_cast]
  exact idx_val_congr j _ _ _ _ e

/-- A right batch axis reads the result index at the axis's place among the batch axes. -/
theorem rhsIdx_val_batch (d : DotDims sl sr so) {a : Fin sr.rank} (hmem : a ∈ d.rhsBatch) (j : so.Idx) (k : d.contr.Idx)
    (p : Nat) (hp : p < so.rank) (e : d.rhsBatch.idxOf a = p) : (d.rhsIdx j k a).val = (j ⟨p, hp⟩).val := by
  unfold DotDims.rhsIdx
  rw [dif_pos hmem]
  simp only [Fin.val_cast]
  exact idx_val_congr j _ _ _ _ e

/-- A right non-contracting axis reads the result index after the batch axes and the left operand's own. -/
theorem rhsIdx_val_non (d : DotDims sl sr so) {a : Fin sr.rank} (hnb : a ∉ d.rhsBatch) (hmem : a ∈ d.rhsNonContracting)
    (j : so.Idx) (k : d.contr.Idx) (p : Nat) (hp : p < so.rank)
    (e : d.lhsBatch.length + d.lhsNonContracting.length + d.rhsNonContracting.idxOf a = p) :
    (d.rhsIdx j k a).val = (j ⟨p, hp⟩).val := by
  unfold DotDims.rhsIdx
  rw [dif_neg hnb, dif_pos hmem]
  simp only [Fin.val_cast]
  exact idx_val_congr j _ _ _ _ e

/-- THE PRODUCT WITH A TRANSPOSED RIGHT OPERAND at `(p, q)`. -/
theorem matmul_abt_apply {M K N : Nat} {φ₁ φ₂ : FTy}
    (d : DotDims ⟨2, ![M, K]⟩ ⟨2, ![N, K]⟩ ⟨2, ![M, N]⟩)
    (hlc : d.lhsContracting = [1]) (hrc : d.rhsContracting = [1]) (hln : d.lhsNonContracting = [0]) (hrn : d.rhsNonContracting = [0])
    (hlb : d.lhsBatch = []) (hrb : d.rhsBatch = []) (prec : Option ContractPrecision)
    (l : FVec Ideal ⟨2, ![M, K]⟩ φ₁) (r : FVec Ideal ⟨2, ![N, K]⟩ φ₂) (p : Fin M) (q : Fin N) :
    FloatOps.matmul d prec l r (constant ⟨2, ![M, N]⟩ .f32 0x00000000#32) (ix2 p q) = ∑ k : Fin K, l (ix2 p k) * r (ix2 q k) := by
  have hr : d.contr.rank = 1 := contr_rank_one d hlc
  have hs : d.contr.size ⟨0, by omega⟩ = K := (contr_size_zero d hlc (by omega)).trans rfl
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhsIdx_val_non d (by rw [hlb]; exact List.not_mem_nil) (by rw [hln]; exact List.mem_singleton.mpr rfl) _ _ 0 (by show 0 < 2; omega) (by simp [hlb, hln])
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhsIdx_val_non d (by rw [hrb]; exact List.not_mem_nil) (by rw [hrn]; exact List.mem_singleton.mpr rfl) _ _ 1 (by show 1 < 2; omega) (by simp [hlb, hln, hrn])
    | ⟨1, _⟩ => exact (d.rhsIdx_val_of_single hrc _ _).trans hk)
  rw [el, er]

/-- THE HEAD-BATCHED PRODUCT WITH A TRANSPOSED RIGHT OPERAND at `(b, p, q)`. -/
theorem matmul_batched_abt_apply {B M K N : Nat} {φ₁ φ₂ : FTy}
    (d : DotDims ⟨3, ![B, M, K]⟩ ⟨3, ![B, N, K]⟩ ⟨3, ![B, M, N]⟩)
    (hlc : d.lhsContracting = [2]) (hrc : d.rhsContracting = [2]) (hln : d.lhsNonContracting = [1]) (hrn : d.rhsNonContracting = [1])
    (hlb : d.lhsBatch = [0]) (hrb : d.rhsBatch = [0]) (prec : Option ContractPrecision)
    (l : FVec Ideal ⟨3, ![B, M, K]⟩ φ₁) (r : FVec Ideal ⟨3, ![B, N, K]⟩ φ₂) (b : Fin B) (p : Fin M) (q : Fin N) :
    FloatOps.matmul d prec l r (constant ⟨3, ![B, M, N]⟩ .f32 0x00000000#32) (ix3 b p q) = ∑ k : Fin K, l (ix3 b p k) * r (ix3 b q k) := by
  have hr : d.contr.rank = 1 := contr_rank_one d hlc
  have hs : d.contr.size ⟨0, by omega⟩ = K := (contr_size_zero d hlc (by omega)).trans rfl
  rw [Ideal.matmul_constant_zero_apply, ← Equiv.sum_comp (contrEquiv1 d K hr hs).symm]
  refine Finset.sum_congr rfl fun k _ => ?_
  have hk := contrEquiv1_symm_val d K hr hs k
  have el : d.lhsIdx (ix3 b p q) ((contrEquiv1 d K hr hs).symm k) = ix3 b p k := funext fun a => Fin.ext (by
    match a with
    | ⟨0, _⟩ => exact lhsIdx_val_batch d (by rw [hlb]; exact List.mem_singleton.mpr rfl) _ _ 0 (by show 0 < 3; omega) (by simp [hlb])
    | ⟨1, _⟩ => exact lhsIdx_val_non d (by rw [hlb]; simp [Fin.ext_iff]) (by rw [hln]; exact List.mem_singleton.mpr rfl) _ _ 1 (by show 1 < 3; omega) (by simp [hlb, hln])
    | ⟨2, _⟩ => exact (d.lhsIdx_val_of_single hlc _ _).trans hk)
  have er : d.rhsIdx (ix3 b p q) ((contrEquiv1 d K hr hs).symm k) = ix3 b q k := funext fun a => Fin.ext (by
    match a with
    | ⟨0, _⟩ => exact rhsIdx_val_batch d (by rw [hrb]; exact List.mem_singleton.mpr rfl) _ _ 0 (by show 0 < 3; omega) (by simp [hrb])
    | ⟨1, _⟩ => exact rhsIdx_val_non d (by rw [hrb]; simp [Fin.ext_iff]) (by rw [hrn]; exact List.mem_singleton.mpr rfl) _ _ 2 (by show 2 < 3; omega) (by simp [hlb, hln, hrn])
    | ⟨2, _⟩ => exact (d.rhsIdx_val_of_single hrc _ _).trans hk)
  rw [el, er]

/-- THE HEAD-BATCHED PLAIN PRODUCT at `(b, p, q)`. -/
theorem matmul_batched_ab_apply {B M K N : Nat} {φ₁ φ₂ : FTy}
    (d : DotDims ⟨3, ![B, M, K]⟩ ⟨3, ![B, K, N]⟩ ⟨3, ![B, M, N]⟩)
    (hlc : d.lhsContracting = [2]) (hrc : d.rhsContracting = [1]) (hln : d.lhsNonContracting = [1]) (hrn : d.rhsNonContracting = [2])
    (hlb : d.lhsBatch = [0]) (hrb : d.rhsBatch = [0]) (prec : Option ContractPrecision)
    (l : FVec Ideal ⟨3, ![B, M, K]⟩ φ₁) (r : FVec Ideal ⟨3, ![B, K, N]⟩ φ₂) (b : Fin B) (p : Fin M) (q : Fin N) :
    FloatOps.matmul d prec l r (constant ⟨3, ![B, M, N]⟩ .f32 0x00000000#32) (ix3 b p q) = ∑ k : Fin K, l (ix3 b p k) * r (ix3 b k q) := by
  have hr : d.contr.rank = 1 := contr_rank_one d hlc
  have hs : d.contr.size ⟨0, by omega⟩ = K := (contr_size_zero d hlc (by omega)).trans rfl
  rw [Ideal.matmul_constant_zero_apply, ← Equiv.sum_comp (contrEquiv1 d K hr hs).symm]
  refine Finset.sum_congr rfl fun k _ => ?_
  have hk := contrEquiv1_symm_val d K hr hs k
  have el : d.lhsIdx (ix3 b p q) ((contrEquiv1 d K hr hs).symm k) = ix3 b p k := funext fun a => Fin.ext (by
    match a with
    | ⟨0, _⟩ => exact lhsIdx_val_batch d (by rw [hlb]; exact List.mem_singleton.mpr rfl) _ _ 0 (by show 0 < 3; omega) (by simp [hlb])
    | ⟨1, _⟩ => exact lhsIdx_val_non d (by rw [hlb]; simp [Fin.ext_iff]) (by rw [hln]; exact List.mem_singleton.mpr rfl) _ _ 1 (by show 1 < 3; omega) (by simp [hlb, hln])
    | ⟨2, _⟩ => exact (d.lhsIdx_val_of_single hlc _ _).trans hk)
  have er : d.rhsIdx (ix3 b p q) ((contrEquiv1 d K hr hs).symm k) = ix3 b k q := funext fun a => Fin.ext (by
    match a with
    | ⟨0, _⟩ => exact rhsIdx_val_batch d (by rw [hrb]; exact List.mem_singleton.mpr rfl) _ _ 0 (by show 0 < 3; omega) (by simp [hrb])
    | ⟨1, _⟩ => exact (d.rhsIdx_val_of_single hrc _ _).trans hk
    | ⟨2, _⟩ => exact rhsIdx_val_non d (by rw [hrb]; simp [Fin.ext_iff]) (by rw [hrn]; exact List.mem_singleton.mpr rfl) _ _ 2 (by show 2 < 3; omega) (by simp [hlb, hln, hrn]))
  rw [el, er]

end Idealize.ShloMosaic.DotABt
-- ==== Proof.BlockStep.lean ====
/-
  One grid point of the kernel: what it leaves in the accumulator and, at the last point of a run, in the output block.
  The body stores acc + x * wT into the accumulator (acc is the zero block at the first point of a run), and at the last
  point copies the accumulator to the output block. Read at an index over the extended reals, the step adds to acc (p, q)
  the sum over kk of x (p, kk) * w (q, kk).
-/
import proofs.«426815_j29265907155540_1_alg».proof.Proof.Gen.KernelIdeal.Frame
import proofs.«426815_j29265907155540_1_alg».proof.Proof.LibDotABt
import Idealize.ShloMosaic.Lib.Pipeline.Value
import Idealize.ShloMosaic.Lib.Tactic

noncomputable section

namespace Cert.KernelIdeal.Step

open Cert.KernelIdeal Cert.KernelIdeal.Gen Idealize.ShloMosaic Idealize.ShloMosaic.TcCoe Idealize.SL.Sem
open Idealize.ShloMosaic.ValueIdx

variable {F : FTy → Type} [FloatOps F]

theorem hz : (![0, 0] : Fin 2 → Nat) = fun _ => 0 := funext fun a => by fin_cases a <;> rfl

/-- First point of a run: the accumulator is left at zero + x * wT. -/
theorem scratch_A (c : Dev nD) (i : grid0.Coords) (a2 : Memref sig .tc .vmem S64x2048 .bf16) (h2 : a2.IsWhole)
    (a3 : Memref sig .tc .vmem S2048x2048 .bf16) (h3 : a3.IsWhole) (a4 : Memref sig .tc .vmem S64x2048 .f32) (h4 : a4.IsWhole)
    (a5 : Memref sig .tc .vmem S64x2048 .f32) (h5 : a5.IsWhole) (hc0 : cond0_0 i) (hc1 : ¬cond0_1 i)
    (x0 : Vec F S64x2048 .bf16) (x1 : Vec F S2048x2048 .bf16) :
    sout0_A_0 c i a2 h2 a3 h3 a4 h4 a5 h5 hc0 hc1 x0 x1 = k0_pay2 (k0_pay1 (F := F)) x0 x1 := by
  -- two covering stores, the later over the earlier; the later one's payload reads back the zero block just stored
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S64x2048) hz, View.readCov_unit_zero (S := S64x2048) _ hz]
  simp only [View.readAt_eq_ld, h2.read_unread, h3.read_unread,
    View.ld_unit_zero (S := S64x2048) hz, View.ld_unit_zero (S := S2048x2048) hz]

/-- A middle point: the accumulator is left at acc + x * wT. -/
theorem scratch_B (c : Dev nD) (i : grid0.Coords) (a2 : Memref sig .tc .vmem S64x2048 .bf16) (h2 : a2.IsWhole)
    (a3 : Memref sig .tc .vmem S2048x2048 .bf16) (h3 : a3.IsWhole) (a4 : Memref sig .tc .vmem S64x2048 .f32) (h4 : a4.IsWhole)
    (a5 : Memref sig .tc .vmem S64x2048 .f32) (h5 : a5.IsWhole) (hc0 : ¬cond0_0 i) (hc1 : ¬cond0_1 i)
    (x0 : Vec F S64x2048 .bf16) (x1 : Vec F S2048x2048 .bf16) (xs0 : Vec F S64x2048 .f32) :
    sout0_B_0 c i a2 h2 a3 h3 a4 h4 a5 h5 hc0 hc1 x0 x1 xs0 = k0_pay2 xs0 x0 x1 := by
  -- one covering store; its payload's loads read the whole buffers, the accumulator's at the carried value
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz]
  simp only [View.readAt_eq_ld, h2.read_unread, h3.read_unread, h4.read_unread, h5.read_unread,
    View.ld_unit_zero (S := S64x2048) hz, View.ld_unit_zero (S := S2048x2048) hz]

/-- The last point of a run: the accumulator is left at acc + x * wT … -/
theorem scratch_C (c : Dev nD) (i : grid0.Coords) (a2 : Memref sig .tc .vmem S64x2048 .bf16) (h2 : a2.IsWhole)
    (a3 : Memref sig .tc .vmem S2048x2048 .bf16) (h3 : a3.IsWhole) (a4 : Memref sig .tc .vmem S64x2048 .f32) (h4 : a4.IsWhole)
    (a5 : Memref sig .tc .vmem S64x2048 .f32) (h5 : a5.IsWhole) (hc0 : ¬cond0_0 i) (hc1 : cond0_1 i)
    (x0 : Vec F S64x2048 .bf16) (x1 : Vec F S2048x2048 .bf16) (xs0 : Vec F S64x2048 .f32) :
    sout0_C_0 c i a2 h2 a3 h3 a4 h4 a5 h5 hc0 hc1 x0 x1 xs0 = k0_pay2 xs0 x0 x1 := by
  -- as at a middle point: the copy to the output block does not touch the accumulator
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h4.read_unread, h5.read_unread,
    View.ld_unit_zero (S := S64x2048) hz, View.ld_unit_zero (S := S2048x2048) hz]

/-- … and the output block holds the same. -/
theorem out_C (c : Dev nD) (i : grid0.Coords) (a2 : Memref sig .tc .vmem S64x2048 .bf16) (h2 : a2.IsWhole)
    (a3 : Memref sig .tc .vmem S2048x2048 .bf16) (h3 : a3.IsWhole) (a4 : Memref sig .tc .vmem S64x2048 .f32) (h4 : a4.IsWhole)
    (a5 : Memref sig .tc .vmem S64x2048 .f32) (h5 : a5.IsWhole) (hc0 : ¬cond0_0 i) (hc1 : cond0_1 i)
    (x0 : Vec F S64x2048 .bf16) (x1 : Vec F S2048x2048 .bf16) (xs0 : Vec F S64x2048 .f32) :
    out0_C_2 c i a2 h2 a3 h3 a4 h4 a5 h5 hc0 hc1 x0 x1 xs0 = k0_pay2 xs0 x0 x1 := by
  -- the output block's one covering store writes the accumulator as read back after its own covering store
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S64x2048) _ hz]
  simp only [View.readAt_eq_ld, h2.read_unread, h3.read_unread, h5.read_unread,
    View.ld_unit_zero (S := S64x2048) hz, View.ld_unit_zero (S := S2048x2048) hz]

/-- The zero block, at an index. -/
theorem zero_apply (j : S64x2048.Idx) : (k0_pay1 (F := Ideal) : S64x2048.Idx → EReal) j = 0 := by
  -- a broadcast of the word of +0.0, reshaped to its own shape; that word is 0 in the extended reals
  unfold k0_pay1
  simp only [shapeCast_self, ValueIdx.broadcast_apply]
  exact Ideal.ofBits_zero_f32

/-- The step, at an index. -/
theorem step_apply (acc : Vec Ideal S64x2048 .f32) (x : Vec Ideal S64x2048 .bf16) (w : Vec Ideal S2048x2048 .bf16)
    (p : Fin 64) (q : Fin 2048) :
    (k0_pay2 (F := Ideal) acc x w : S64x2048.Idx → EReal) (ix2 p q)
      = (acc : S64x2048.Idx → EReal) (ix2 p q)
        + ∑ kk : Fin 2048, (x : S64x2048.Idx → EReal) (ix2 p kk) * (w : S2048x2048.Idx → EReal) (ix2 q kk) := by
  -- the reshapes are to the same shape; the sum of blocks reads pointwise; the product into the zero block,
  -- contracted on the last axis of both operands, is the sum over that axis
  unfold k0_pay2
  simp only [shapeCast_self]
  exact congrArg ((acc : S64x2048.Idx → EReal) (ix2 p q) + ·)
    (Idealize.ShloMosaic.DotABt.matmul_abt_apply (M := 64) (K := 2048) (N := 2048)
      dot_S64x2048_S2048x2048_S64x2048_1_1_0_0_n_n rfl rfl rfl rfl rfl rfl none x w p q)

end Cert.KernelIdeal.Step

end
-- ==== Proof.KernelArray.lean ====
/-
  The kernel's result array as one function of its two staged arrays: X times the transpose of W.

  The grid is 8 x 8: point t works on output column block t / 8 and on contraction stretch t % 8. The accumulator is reset
  at the first point of each run of eight and adds, at every point, the product of the point's X block (all 64 rows, the
  2048 columns of the stretch) with the point's W block (2048 rows of the column block, the same 2048 columns), so after
  the last point of the run it holds, at (p, q), the sum over all 16384 columns k of X (p, k) * W (2048 (t / 8) + q, k);
  that point copies it to the output block, which is written back as column block t / 8 of the result. The eight
  written-back blocks tile the result array.
-/
import proofs.«426815_j29265907155540_1_alg».proof.Proof.Gen.KernelIdeal.Value
import proofs.«426815_j29265907155540_1_alg».proof.Proof.BlockStep
import proofs.«426815_j29265907155540_1_alg».proof.Proof.SparseDense
import Idealize.ShloMosaic.Lib.Pipeline.Value

noncomputable section

namespace Cert.KernelIdeal.Arr

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The two staged arrays as the region finds them (window 0's and window 1's), and a point's blocks of them. -/
abbrev xarr (c : Dev nD) : S64x16384.Idx → EReal := V m c (Pipeline.arrRef spec0 0)
abbrev warr (c : Dev nD) : S16384x16384.Idx → EReal := V m c (Pipeline.arrRef spec0 1)
abbrev xblk (c : Dev nD) (t : Fin cfg0.N) : S64x2048.Idx → EReal := iblk m c 0 t
abbrev wblk (c : Dev nD) (t : Fin cfg0.N) : S2048x2048.Idx → EReal := iblk m c 1 t

/-- Where the three windows sit at point t: X's block is (0, t % 8), W's is (t / 8, t % 8), the result's is (0, t / 8). -/
theorem idx_facts : ∀ t : Fin cfg0.N,
    win0_0.index t (0 : Fin 2) = 0 ∧ win0_0.index t (1 : Fin 2) = t.val % 8
    ∧ win0_1.index t (0 : Fin 2) = t.val / 8 ∧ win0_1.index t (1 : Fin 2) = t.val % 8
    ∧ win0_2.index t (0 : Fin 2) = 0 ∧ win0_2.index t (1 : Fin 2) = t.val / 8 :=
  (by decide +kernel : ∀ t : Fin grid0.N, _)

theorem lt_points (t : Fin cfg0.N) : t.val < 64 := lt_of_lt_of_eq t.isLt (show cfg0.N = 64 from N_0)

/-- Entry (p, kk) of X's block at point t sits at (p, 2048 (t % 8) + kk) of X. -/
theorem emb_x (t : Fin cfg0.N) (p : Fin 64) (kk : Fin 2048) (k : Fin 16384) (hk : k.val = t.val % 8 * 2048 + kk.val) :
    ((cfg0.win 0).blk t).view.emb (ix2 p kk) = (ix2 p k : S64x16384.Idx) := by
  obtain ⟨e0, e1, -, -, -, -⟩ := idx_facts t
  funext a; apply Fin.ext
  match a with
  | ⟨0, _⟩ => show win0_0.index t (0 : Fin 2) * 64 + 1 * p.val = p.val; omega
  | ⟨1, _⟩ => show win0_0.index t (1 : Fin 2) * 2048 + 1 * kk.val = k.val; omega

/-- Entry (q, kk) of W's block at point t sits at (2048 (t / 8) + q, 2048 (t % 8) + kk) of W. -/
theorem emb_w (t : Fin cfg0.N) (q : Fin 2048) (kk : Fin 2048) (o k : Fin 16384) (ho : o.val = t.val / 8 * 2048 + q.val)
    (hk : k.val = t.val % 8 * 2048 + kk.val) :
    ((cfg0.win 1).blk t).view.emb (ix2 q kk) = (ix2 o k : S16384x16384.Idx) := by
  obtain ⟨-, -, e0, e1, -, -⟩ := idx_facts t
  funext a; apply Fin.ext
  match a with
  | ⟨0, _⟩ => show win0_1.index t (0 : Fin 2) * 2048 + 1 * q.val = o.val; omega
  | ⟨1, _⟩ => show win0_1.index t (1 : Fin 2) * 2048 + 1 * kk.val = k.val; omega

/-- Entry (p, q) of the result's block at point t sits at (p, 2048 (t / 8) + q) of the result. -/
theorem emb_o (t : Fin cfg0.N) (p : Fin 64) (q : Fin 2048) (o : Fin 16384) (ho : o.val = t.val / 8 * 2048 + q.val) :
    ((cfg0.win 2).blk t).view.emb (ix2 p q) = (ix2 p o : S64x16384.Idx) := by
  obtain ⟨-, -, -, -, e0, e1⟩ := idx_facts t
  funext a; apply Fin.ext
  match a with
  | ⟨0, _⟩ => show win0_2.index t (0 : Fin 2) * 64 + 1 * p.val = p.val; omega
  | ⟨1, _⟩ => show win0_2.index t (1 : Fin 2) * 2048 + 1 * q.val = o.val; omega

/-- A block of any array read through its window (stated for any contents of the array). -/
theorem read_x (A : S64x16384.Idx → EReal) (t : Fin cfg0.N) (p : Fin 64) (kk : Fin 2048) (k : Fin 16384)
    (hk : k.val = t.val % 8 * 2048 + kk.val) :
    ((cfg0.win 0).blk t).view.read (Elt Ideal) A (ix2 p kk) = A (ix2 p k) := by
  rw [View.read_apply]
  exact congrArg A (emb_x t p kk k hk)

theorem read_w (A : S16384x16384.Idx → EReal) (t : Fin cfg0.N) (q : Fin 2048) (kk : Fin 2048) (o k : Fin 16384)
    (ho : o.val = t.val / 8 * 2048 + q.val) (hk : k.val = t.val % 8 * 2048 + kk.val) :
    ((cfg0.win 1).blk t).view.read (Elt Ideal) A (ix2 q kk) = A (ix2 o k) := by
  rw [View.read_apply]
  exact congrArg A (emb_w t q kk o k ho hk)

theorem xblk_apply (c : Dev nD) (t : Fin cfg0.N) (p : Fin 64) (kk : Fin 2048) (k : Fin 16384)
    (hk : k.val = t.val % 8 * 2048 + kk.val) :
    xblk m c t (ix2 p kk) = xarr m c (ix2 p k) :=
  read_x (V m c (Pipeline.arrRef spec0 0)) t p kk k hk

theorem wblk_apply (c : Dev nD) (t : Fin cfg0.N) (q : Fin 2048) (kk : Fin 2048) (o k : Fin 16384)
    (ho : o.val = t.val / 8 * 2048 + q.val) (hk : k.val = t.val % 8 * 2048 + kk.val) :
    wblk m c t (ix2 q kk) = warr m c (ix2 o k) :=
  read_w (V m c (Pipeline.arrRef spec0 1)) t q kk o k ho hk

/-- The windows' arrays by name. A buffer's contents on entry depend on the buffer alone. -/
theorem V_heq (c : Dev nD) {b b' : Ref sig .tc} (h : b = b') : HEq (V m c b) (V m c b') := by subst h; rfl
theorem arr0 : Pipeline.arrRef spec0 (0 : Fin cfg0.W) = main_v16 := rfl
theorem arr1 : Pipeline.arrRef spec0 (1 : Fin cfg0.W) = main_v15 := rfl
theorem xarr_eq (c : Dev nD) : xarr m c = (V m c main_v16 : S64x16384.Idx → EReal) := eq_of_heq (V_heq m c arr0)
theorem warr_eq (c : Dev nD) : warr m c = (V m c main_v15 : S16384x16384.Idx → EReal) := eq_of_heq (V_heq m c arr1)

/-- What point n adds to the accumulator at (p, q): the product of its two blocks, summed over the stretch. -/
def addend (c : Dev nD) (n : ℕ) : S64x2048.Idx → EReal := fun j =>
  if h : n < cfg0.N then ∑ kk : Fin 2048, xblk m c ⟨n, h⟩ (ix2 (j 0) kk) * wblk m c ⟨n, h⟩ (ix2 (j 1) kk) else 0

theorem addend_of_lt (c : Dev nD) (n : ℕ) (h : n < cfg0.N) (p : Fin 64) (q : Fin 2048) :
    addend m c n (ix2 p q) = ∑ kk : Fin 2048, xblk m c ⟨n, h⟩ (ix2 p kk) * wblk m c ⟨n, h⟩ (ix2 q kk) := by
  unfold addend
  rw [dif_pos h]

/-- The step at an index, for any accumulator and any two blocks. -/
theorem step_at (acc : Vec Ideal S64x2048 .f32) (x : Vec Ideal S64x2048 .bf16) (w : Vec Ideal S2048x2048 .bf16) (j : S64x2048.Idx) :
    (k0_pay2 (F := Ideal) acc x w : S64x2048.Idx → EReal) j
      = (acc : S64x2048.Idx → EReal) j
        + ∑ kk : Fin 2048, (x : S64x2048.Idx → EReal) (ix2 (j 0) kk) * (w : S2048x2048.Idx → EReal) (ix2 (j 1) kk) := by
  obtain ⟨p, q, rfl⟩ : ∃ (p : Fin 64) (q : Fin 2048), j = ix2 p q := ⟨j 0, j 1, eq_ix2 j⟩
  exact Step.step_apply acc x w p q

/-- At the first point of a run the accumulator is left at zero plus the point's addend, whatever it held. -/
theorem sc_first (c : Dev nD) (n : ℕ) (h : n < cfg0.N) (h0 : n % 8 = 0) (acc : Vec Ideal S64x2048 .f32) (j : S64x2048.Idx) :
    (Cert.KernelIdeal.Value.scAt0_0 m c n h acc : S64x2048.Idx → EReal) j = 0 + addend m c n j := by
  have h1 : ¬n % 8 = 7 := by omega
  unfold Cert.KernelIdeal.Value.scAt0_0
  rw [dif_pos h0, dif_neg h1, Step.scratch_A, step_at, Step.zero_apply]
  unfold addend
  rw [dif_pos h]

/-- At every later point of a run the accumulator gains the point's addend. -/
theorem sc_later (c : Dev nD) (n : ℕ) (h : n < cfg0.N) (h0 : ¬n % 8 = 0) (acc : Vec Ideal S64x2048 .f32) (j : S64x2048.Idx) :
    (Cert.KernelIdeal.Value.scAt0_0 m c n h acc : S64x2048.Idx → EReal) j = (acc : S64x2048.Idx → EReal) j + addend m c n j := by
  unfold Cert.KernelIdeal.Value.scAt0_0
  rw [dif_neg h0]
  by_cases h1 : n % 8 = 7
  · rw [dif_pos h1, Step.scratch_C, step_at]
    unfold addend
    rw [dif_pos h]
  · rw [dif_neg h1, Step.scratch_B, step_at]
    unfold addend
    rw [dif_pos h]

/-- The accumulator after point t: zero plus the addends of the points of t's run up to t. -/
theorem scratch_apply (c : Dev nD) (t : Fin cfg0.N) (j : S64x2048.Idx) :
    ((outsAt0 m c t.val t.isLt).2 : S64x2048.Idx → EReal) j
      = 0 + ∑ s ∈ Finset.range (t.val % 8 + 1), addend m c (8 * (t.val / 8) + s) j := by
  rw [Cert.KernelIdeal.Value.soutsAt0_0_eq m c t]
  exact Pipeline.accAt_add_apply (ι := S64x2048.Idx) (β := EReal)
    (fun n h => Cert.KernelIdeal.Value.scAt0_0 m c n h (VS0_0.read (Elt Ideal) VS0_0.junk))
    (Cert.KernelIdeal.Value.scAt0_0 m c) (fun _ => 0) (addend m c) (8 * (t.val / 8)) 7
    (fun h i => sc_first m c _ h (by omega) _ i)
    (fun n h acc i h1 h2 => sc_later m c n h (by omega) acc i)
    (t.val % 8) (by omega) _ j

/-- At the last point of a run the output block holds what the accumulator holds. -/
theorem out_eq_scratch (c : Dev nD) (t : Fin cfg0.N) (h1 : t.val % 8 = 7) :
    (outsAt0 m c t.val t.isLt).1 = (outsAt0 m c t.val t.isLt).2 := by
  have h0 : ¬t.val % 8 = 0 := by omega
  rw [outsAt0_C m c t h0 h1]
  dsimp only
  rw [Step.out_C, Step.scratch_C]

/-- The addend of point 8 (t / 8) + kb of t's run, through the arrays: stretch kb of the row-by-row product. -/
theorem addend_apply (c : Dev nD) (t : Fin cfg0.N) (kb : Fin 8) (p : Fin 64) (q : Fin 2048) (o : Fin 16384)
    (ho : o.val = t.val / 8 * 2048 + q.val) :
    addend m c (8 * (t.val / 8) + kb.val) (ix2 p q)
      = ∑ kk : Fin 2048, xarr m c (ix2 p ⟨kb.val * 2048 + kk.val, by omega⟩) * warr m c (ix2 o ⟨kb.val * 2048 + kk.val, by omega⟩) := by
  have ht := lt_points t
  have hn : 8 * (t.val / 8) + kb.val < cfg0.N := lt_of_lt_of_eq (by omega) (show 64 = cfg0.N from N_0.symm)
  rw [addend_of_lt m c _ hn p q]
  refine Finset.sum_congr rfl fun kk _ => ?_
  rw [xblk_apply m c ⟨8 * (t.val / 8) + kb.val, hn⟩ p kk ⟨kb.val * 2048 + kk.val, by omega⟩ (by show kb.val * 2048 + kk.val = (8 * (t.val / 8) + kb.val) % 8 * 2048 + kk.val; omega),
    wblk_apply m c ⟨8 * (t.val / 8) + kb.val, hn⟩ q kk o ⟨kb.val * 2048 + kk.val, by omega⟩ (by show o.val = (8 * (t.val / 8) + kb.val) / 8 * 2048 + q.val; omega) (by show kb.val * 2048 + kk.val = (8 * (t.val / 8) + kb.val) % 8 * 2048 + kk.val; omega)]

/-- The product at an index, for any two arrays. -/
theorem timesT_apply (X : S64x16384.Idx → EReal) (W : S16384x16384.Idx → EReal) (p : Fin 64) (o : Fin 16384) :
    Cert.SparseDense.timesT X W (ix2 p o) = ∑ k : Fin 16384, X (ix2 p k) * W (ix2 o k) := rfl

/-- After the last point of a run the accumulator holds the whole product, at the run's column block. -/
theorem run_total (c : Dev nD) (t : Fin cfg0.N) (h1 : t.val % 8 = 7) (p : Fin 64) (q : Fin 2048) (o : Fin 16384)
    (ho : o.val = t.val / 8 * 2048 + q.val) :
    ((outsAt0 m c t.val t.isLt).2 : S64x2048.Idx → EReal) (ix2 p q)
      = Cert.SparseDense.timesT (xarr m c) (warr m c) (ix2 p o) := by
  rw [scratch_apply, zero_add, h1, Finset.sum_range, timesT_apply, Cert.SparseDense.sum_stretches]
  exact Finset.sum_congr rfl fun kb _ => addend_apply m c t kb p q o ho

/-- What is cut out of a block-sized buffer for the write-back is the buffer, and a block of an array read through the
    result's window is the array at the block's place (both for any contents). -/
theorem cut_eq_read (v : S64x2048.Idx → EReal) (G : S64x16384.Idx → EReal) (t : Fin cfg0.N)
    (h : ∀ (p : Fin 64) (q : Fin 2048) (o : Fin 16384), o.val = t.val / 8 * 2048 + q.val → v (ix2 p q) = G (ix2 p o)) :
    (cfg0.win 2).cut (grid0.coords t) v = ((cfg0.win 2).blk t).view.read (Elt Ideal) G := by
  have ht := lt_points t
  funext y
  obtain ⟨p, q, rfl⟩ : ∃ (p : Fin 64) (q : Fin 2048), y = ix2 p q := ⟨y 0, y 1, eq_ix2 y⟩
  show v (ix2 p q) = G (((cfg0.win 2).blk t).view.emb (ix2 p q))
  rw [emb_o t p q ⟨t.val / 8 * 2048 + q.val, by omega⟩ rfl]
  exact h p q _ rfl

/-- What a writing-back point writes back is its block of the product. -/
theorem flushed_eq (c : Dev nD) (t : Fin cfg0.N) (hf : (cfg0.win 2).flush t = true) :
    (dats m 0 c).flushed 2 t
      = ((cfg0.win 2).blk t).view.read (Elt Ideal) (Cert.SparseDense.timesT (xarr m c) (warr m c)) := by
  have h1 : t.val % 8 = 7 := (flush0_2 t).mp hf
  rw [Cert.KernelIdeal.Value.flushed2, out_eq_scratch m c t h1]
  exact cut_eq_read _ _ t (run_total m c t h1)

/-- An index of the result is in point t's block iff each coordinate is in the block's range on its axis. -/
theorem mem_blk (t : Fin cfg0.N) (i : S64x16384.Idx) :
    i ∈ ((cfg0.win 2).blk t).view.set ↔ ∀ a : Fin 2, win0_2.index t a * S64x2048.size a ≤ (i a).val ∧ (i a).val < win0_2.index t a * S64x2048.size a + S64x2048.size a := by
  show i ∈ ((View.whole main_v17).slice (win0_2.rect t)).set ↔ _
  rw [View.set_slice_whole, Rect.mem_set_unit]
  exact Iff.rfl

/-- Column block o / 2048 is written back by the last point of its run. -/
theorem covered (i : S64x16384.Idx) :
    ∃ t : Fin cfg0.N, (cfg0.win 2).flush t = true ∧ i ∈ ((cfg0.win 2).blk t).view.set := by
  have hi0 : (i 0).val < 64 := (i 0).isLt
  have hi1 : (i 1).val < 16384 := (i 1).isLt
  have hb : (i 1).val / 2048 * 8 + 7 < cfg0.N := lt_of_lt_of_eq (by omega) (show 64 = cfg0.N from N_0.symm)
  obtain ⟨-, -, -, -, e0, e1⟩ := idx_facts ⟨(i 1).val / 2048 * 8 + 7, hb⟩
  have e1' : win0_2.index ⟨(i 1).val / 2048 * 8 + 7, hb⟩ (1 : Fin 2) = ((i 1).val / 2048 * 8 + 7) / 8 := e1
  refine ⟨⟨(i 1).val / 2048 * 8 + 7, hb⟩, (flush0_2 _).mpr (by show ((i 1).val / 2048 * 8 + 7) % 8 = 7; omega), ?_⟩
  rw [mem_blk]
  intro a
  match a with
  | ⟨0, _⟩ => show win0_2.index _ (0 : Fin 2) * 64 ≤ (i 0).val ∧ (i 0).val < win0_2.index _ (0 : Fin 2) * 64 + 64; omega
  | ⟨1, _⟩ => show win0_2.index _ (1 : Fin 2) * 2048 ≤ (i 1).val ∧ (i 1).val < win0_2.index _ (1 : Fin 2) * 2048 + 2048; omega

/-- The result array after the run: X times the transpose of W, of the two staged arrays by name. -/
theorem final (c : Dev nD) :
    (dats m 0 c).arrAt 2 cfg0.N
      = Cert.SparseDense.timesT (V m c main_v16 : S64x16384.Idx → EReal) (V m c main_v15 : S16384x16384.Idx → EReal) := by
  rw [← xarr_eq m c, ← warr_eq m c]
  exact (dats m 0 c).arrAt_eq_of_cover 2 _ (flushed_eq m c) covered

end Cert.KernelIdeal.Arr

end
-- ==== Proof.lean ====
/-
  The certificate: a sparse matrix in coordinate form (rows, cols, vals) applied to the rows of x.

  The kernel scatters the values into a dense matrix W on the host and multiplies x by the transpose of W in a tiled
  kernel that accumulates over eight stretches of the contracted axis; the reference gathers, for every entry n, the
  column cols n of x, scales it by vals n and adds it into row rows n of the result. Over the extended reals, with every
  x and every value a real number and every row and column index in [0, 16384), both compute, at (b, o), the sum over the
  entries n of row o of vals n * x (b, cols n): the kernel's sum over k of x (b, k) * W (o, k) is that sum with the
  entries grouped by their column k. The index ranges are part of the precondition: outside them the two programs treat
  an index differently (a negative row index wraps in one and is dropped in the other; a column index past the end is
  dropped in one and clamped in the other).

  The three frames are the generated frame runs (the reference's is its generated run with the result dropped); the
  idealization rewrote nothing.
-/
import proofs.«426815_j29265907155540_1_alg».proof.Defs
import proofs.«426815_j29265907155540_1_alg».proof.Proof.Gen.Kernel
import proofs.«426815_j29265907155540_1_alg».proof.Proof.Gen.Kernel.Skeleton
import proofs.«426815_j29265907155540_1_alg».proof.Proof.Gen.Kernel.Launch
import proofs.«426815_j29265907155540_1_alg».proof.Proof.Gen.Kernel.Points
import proofs.«426815_j29265907155540_1_alg».proof.Proof.Gen.Kernel.Frame
import proofs.«426815_j29265907155540_1_alg».proof.Proof.Gen.KernelIdeal
import proofs.«426815_j29265907155540_1_alg».proof.Proof.Gen.KernelIdeal.Skeleton
import proofs.«426815_j29265907155540_1_alg».proof.Proof.Gen.KernelIdeal.Launch
import proofs.«426815_j29265907155540_1_alg».proof.Proof.Gen.KernelIdeal.Points
import proofs.«426815_j29265907155540_1_alg».proof.Proof.Gen.KernelIdeal.Frame
import proofs.«426815_j29265907155540_1_alg».proof.Proof.Gen.ReferenceIdeal
import proofs.«426815_j29265907155540_1_alg».proof.Proof.Gen.Pre_finite_inputs
import proofs.«426815_j29265907155540_1_alg».proof.Proof.Gen.KernelIdeal.Value
import proofs.«426815_j29265907155540_1_alg».proof.Proof.Gen.ReferenceIdeal.Run
import proofs.«426815_j29265907155540_1_alg».proof.Proof.Gen.ReferenceIdeal.Read
import proofs.«426815_j29265907155540_1_alg».proof.Proof.Guard
import proofs.«426815_j29265907155540_1_alg».proof.Proof.SparseDense
import proofs.«426815_j29265907155540_1_alg».proof.Proof.DenseScatter
import proofs.«426815_j29265907155540_1_alg».proof.Proof.EntryScatter
import proofs.«426815_j29265907155540_1_alg».proof.Proof.KernelArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array, as a function of the arguments: the entry-by-entry form. -/
theorem kernel_result (m : (ℓ : Loc Cert.KernelIdeal.nD Cert.KernelIdeal.τ Cert.KernelIdeal.sig) → Buf (Elt Ideal) ℓ)
    (hpre : Cert.Pre_KernelIdeal m) (c : Dev Cert.KernelIdeal.nD) :
    (Cert.KernelIdeal.Gen.dats m 0 c).arrAt 2 Cert.KernelIdeal.cfg0.N
      = Cert.SparseDense.viaEntries (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  obtain ⟨hx, hv, hr, hc⟩ := Cert.Guard.of_pre _ _ _ _ (hpre c)
  rw [Cert.KernelIdeal.Arr.final m c]
  rw [Cert.KernelIdeal.Staged.X_eq m c, Cert.KernelIdeal.Staged.W_eq m c hr hc]
  exact Cert.SparseDense.timesT_dense_eq_viaEntries _ _ _ _ hx hv hc

theorem algebraic : Cert.algebraic_KernelIdeal_ReferenceIdeal := by
  intro m ρ m' ρ' hpre hagree
  refine ⟨fun c => Cert.SparseDense.viaEntries (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c => ⟨(h c).1.trans (kernel_result m hpre c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨hx, hv, hr, hc⟩ := Cert.Guard.of_pre _ _ _ _ (hpre c)
    rw [(hagree c).1, (hagree c).2.1, (hagree c).2.2.1, (hagree c).2.2.2, Cert.ReferenceIdeal.Read.val_main_v14_eq]
    exact Cert.ReferenceIdeal.Entries.reference_eq _ _ _ _ hr hc

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
